-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S256x16 : Shape := ⟨2, ![256, 16]⟩
abbrev S2x1600000 : Shape := ⟨2, ![2, 1600000]⟩
abbrev S1600000 : Shape := ⟨1, ![1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S50000x128 .f32) (main_arg1 : FVec F S256x16 .f32) (main_arg2 : IVec S2x1600000 32) (main_arg3 : IVec S1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_c_2 : IVec S_ 32 := constantI S_ 32 0#32
  let main_v9 : IVec S1600000 32 := broadcastInDim S1600000 ![] bcast_S_S1600000 main_c_2
  let main_v10 : IVec S1600000 1 := cmpi .sge main_arg3 main_v9
  let main_c_3 : IVec S_ 1 := constantI S_ 1 1#1
  let main_v11 : IVec S_ 1 := (fun x v => Host.reduce IntOp.andi x v reducesTo_S1600000_S_d0 h_S_) main_v10 main_c_3
  let main_v12 : IVec S_ 1 := andi main_v8 main_v11
  let main_c_4 : IVec S_ 32 := constantI S_ 32 16#32
  let main_v13 : IVec S1600000 32 := broadcastInDim S1600000 ![] bcast_S_S1600000 main_c_4
  let main_v14 : IVec S1600000 1 := cmpi .slt main_arg3 main_v13
  let main_c_5 : IVec S_ 1 := constantI S_ 1 1#1
  let main_v15 : IVec S_ 1 := (fun x v => Host.reduce IntOp.andi x v reducesTo_S1600000_S_d0 h_S_) main_v14 main_c_5
  fn_part1 (F := F) main_v12 main_v15
-- ==== Kernel.lean ====
abbrev S50000x128 : Shape := ⟨2, ![50000, 128]⟩
abbrev S256x16 : Shape := ⟨2, ![256, 16]⟩
abbrev S2x1600000 : Shape := ⟨2, ![2, 1600000]⟩
abbrev S1600000 : Shape := ⟨1, ![1600000]⟩
abbrev S128x16 : Shape := ⟨2, ![128, 16]⟩
abbrev S128x32 : Shape := ⟨2, ![128, 32]⟩
abbrev S50000x16 : Shape := ⟨2, ![50000, 16]⟩
abbrev S5000x128 : Shape := ⟨2, ![5000, 128]⟩
abbrev S5000x16 : Shape := ⟨2, ![5000, 16]⟩
abbrev S5000x32 : Shape := ⟨2, ![5000, 32]⟩
abbrev S_ : Shape := ⟨0, ![]⟩
abbrev S2x1601536 : Shape := ⟨2, ![2, 1601536]⟩
abbrev S1601536 : Shape := ⟨1, ![1601536]⟩
abbrev S1x1601536 : Shape := ⟨2, ![1, 1601536]⟩
abbrev S1601536x1 : Shape := ⟨2, ![1601536, 1]⟩
abbrev S1601536x16 : Shape := ⟨2, ![1601536, 16]⟩
abbrev S4096x16 : Shape := ⟨2, ![4096, 16]⟩
abbrev S4096 : Shape := ⟨1, ![4096]⟩
abbrev S4096x1 : Shape := ⟨2, ![4096, 1]⟩

abbrev nBuf : Space → Nat
  | .hbm => 47
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S256x16, .f32⟩
  | .hbm, ⟨2, _⟩ => ⟨S2x1600000, .i32⟩
  | .hbm, ⟨3, _⟩ => ⟨S1600000, .i32⟩
  | .hbm, ⟨4, _⟩ => ⟨S128x16, .f32⟩
  | .hbm, ⟨5, _⟩ => ⟨S128x16, .f32⟩
  | .hbm, ⟨6, _⟩ => ⟨S128x32, .f32⟩
  | .hbm, ⟨7, _⟩ => ⟨S50000x16, .bf16⟩
  | .hbm, ⟨8, _⟩ => ⟨S50000x16, .bf16⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S_, .i32⟩
  | .hbm, ⟨18, _⟩ => ⟨S_, .i32⟩
  | .hbm, ⟨19, _⟩ => ⟨S2x1601536, .i32⟩
  | .hbm, ⟨20, _⟩ => ⟨S_, .i32⟩
  | .hbm, ⟨21, _⟩ => ⟨S_, .i32⟩
  | .hbm, ⟨22, _⟩ => ⟨S1601536, .i32⟩
  | .hbm, ⟨23, _⟩ => ⟨S1x1601536, .i32⟩
  | .hbm, ⟨24, _⟩ => ⟨S1601536, .i32⟩
  | .hbm, ⟨25, _⟩ => ⟨S_, .i32⟩
  | .hbm, ⟨26, _⟩ => ⟨S1601536, .i32⟩
  | .hbm, ⟨27, _⟩ => ⟨S1601536, .i1⟩
  | .hbm, ⟨28, _⟩ => ⟨S_, .i32⟩
  | .hbm, ⟨29, _⟩ => ⟨S1601536, .i32⟩
  | .hbm, ⟨30, _⟩ => ⟨S1601536, .i32⟩
  | .hbm, ⟨31, _⟩ => ⟨S1601536, .i32⟩
  | .hbm, ⟨32, _⟩ => ⟨S1601536x1, .i32⟩
  | .hbm, ⟨33, _⟩ => ⟨S1601536x16, .bf16⟩
  | .hbm, ⟨34, _⟩ => ⟨S1x1601536, .i32⟩
  | .hbm, ⟨35, _⟩ => ⟨S1601536, .i32⟩
  | .hbm, ⟨36, _⟩ => ⟨S_, .i32⟩
  | .hbm, ⟨37, _⟩ => ⟨S1601536, .i32⟩
  | .hbm, ⟨38, _⟩ => ⟨S1601536, .i1⟩
  | .hbm, ⟨39, _⟩ => ⟨S_, .i32⟩
  | .hbm, ⟨40, _⟩ => ⟨S1601536, .i32⟩
  | .hbm, ⟨41, _⟩ => ⟨S1601536, .i32⟩
  | .hbm, ⟨42, _⟩ => ⟨S1601536, .i32⟩
  | .hbm, ⟨43, _⟩ => ⟨S1601536x1, .i32⟩
  | .hbm, ⟨44, _⟩ => ⟨S1601536x16, .bf16⟩
  | .hbm, ⟨45, _⟩ => ⟨S1601536, .f32⟩
  | .hbm, ⟨46, _⟩ => ⟨S1600000, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x16, .bf16⟩
  | .local _ .vmem, ⟨4, _⟩ => ⟨S5000x16, .bf16⟩
  | .local _ .vmem, ⟨5, _⟩ => ⟨S5000x16, .bf16⟩
  | .local _ .vmem, ⟨6, _⟩ => ⟨S5000x16, .bf16⟩
  | .local _ .vmem, ⟨7, _⟩ => ⟨S4096x16, .bf16⟩
  | .local _ .vmem, ⟨8, _⟩ => ⟨S4096x16, .bf16⟩
  | .local _ .vmem, ⟨9, _⟩ => ⟨S4096x16, .bf16⟩
  | .local _ .vmem, ⟨10, _⟩ => ⟨S4096x16, .bf16⟩
  | .local _ .vmem, ⟨11, _⟩ => ⟨S4096, .i32⟩
  | .local _ .vmem, ⟨12, _⟩ => ⟨S4096, .i32⟩
  | .local _ .vmem, ⟨13, _⟩ => ⟨S4096, .f32⟩
  | .local _ .vmem, ⟨14, _⟩ => ⟨S4096, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_c_1 : Ref sig .tc := ⟨.hbm, 17, rfl⟩
abbrev main_call1_v0 : Ref sig .tc := ⟨.hbm, 18, rfl⟩
abbrev main_v5 : Ref sig .tc := ⟨.hbm, 19, rfl⟩
abbrev main_c_2 : Ref sig .tc := ⟨.hbm, 20, rfl⟩
abbrev main_call2_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_3 : Ref sig .tc := ⟨.hbm, 25, rfl⟩
abbrev main_v9 : Ref sig .tc := ⟨.hbm, 26, rfl⟩
abbrev main_v10 : Ref sig .tc := ⟨.hbm, 27, rfl⟩
abbrev main_c_4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![391], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S4096x16 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x16 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S256x16_S128x16_0_0 : S256x16.Slices ![0, 0] S128x16
  slices_S256x16_S128x16_128_0 : S256x16.Slices ![128, 0] S128x16
  concatenates_S128x16_S128x16_S128x32_d1 : Shape.Concatenates [S128x16, S128x16] S128x32 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  slices_S5000x32_o0_0_S5000x16 : S5000x32.Slices ![0, 0] S5000x16
  inb_S5000x16_S5000x16_0_0 : ∀ a, (![0, 0] : Fin 2 → Nat) a + S5000x16.size a ≤ S5000x16.size a
  h_S5000x16 : 0 < S5000x16.numel
  packedbf16_S5000x16_S5000x16_0_0 : (Rect.unit (s := S5000x16) ![0, 0] S5000x16.size inb_S5000x16_S5000x16_0_0).PackedRows (EltTy.packing .bf16)
  slices_S5000x32_o0_16_S5000x16 : S5000x32.Slices ![0, 16] S5000x16
  bcast_S_S1600000 : S_.BroadcastsInDim S1600000 (![] : Fin 0 → Fin S1600000.rank)
  pads_S2x1600000_S2x1601536_000_015360 : S2x1600000.Pads (![0, 0] : Fin 2 → Nat) ![0, 1536] ![0, 0] S2x1601536
  h_S_ : 0 < S_.numel
  pads_S1600000_S1601536_015360 : S1600000.Pads (![0] : Fin 1 → Nat) ![1536] ![0] S1601536
  slices_S2x1601536_S1x1601536_0_0 : S2x1601536.Slices ![0, 0] S1x1601536
  shapeCasts_S1x1601536_S1601536 : S1x1601536.ShapeCasts S1601536
  bcast_S_S1601536 : S_.BroadcastsInDim S1601536 (![] : Fin 0 → Fin S1601536.rank)
  bcast_S1601536_S1601536x1_0 : S1601536.BroadcastsInDim S1601536x1 (![0] : Fin 1 → Fin S1601536x1.rank)
  slices_S2x1601536_S1x1601536_1_0 : S2x1601536.Slices ![1, 0] S1x1601536
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S4096_S4096_0 : ∀ a, (![0] : Fin 1 → Nat) a + S4096.size a ≤ S4096.size a
  h_S4096 : 0 < S4096.numel
  shapeCasts_S4096_S4096 : S4096.ShapeCasts S4096
  iota_S4096x16_d1_w32 : S4096x16.Iotas .tc 32 [1]
  shapeCasts_S4096_S4096x1 : S4096.ShapeCasts S4096x1
  broadcasts_S4096x1_S4096x16 : S4096x1.Broadcasts S4096x16
  natLt_1_32 : 1 < 32
  reduces_S4096x16_S4096 : S4096x16.Reduces [1] S4096
  slices_S1601536_S1600000_0 : S1601536.Slices ![0] S1600000
  dot_S5000x128_S128x32_S5000x32_1_0_0_1_n_n_wf : DotDims.WF S5000x128 S128x32 S5000x32 [1] [0] [0] [1] [] []
  gather_S50000x16_S1601536x1_S1601536x16_1_0_n_n_0_1_116_wf : GatherDims.WF S50000x16 S1601536x1 S1601536x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S50000x16.size a
  hwx0_2 : ∀ i : grid0.Coords, EltTy.bits .bf16 = 32 ∨ (Rect.block (s := S50000x16) S5000x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S50000x16.size a
  hwx0_3 : ∀ i : grid0.Coords, EltTy.bits .bf16 = 32 ∨ (Rect.block (s := S50000x16) S5000x16.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x16.size a ≤ S1601536x16.size a
  hwx1_0 : ∀ i : grid1.Coords, EltTy.bits .bf16 = 32 ∨ (Rect.block (s := S1601536x16) S4096x16.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x16.size a ≤ S1601536x16.size a
  hwx1_1 : ∀ i : grid1.Coords, EltTy.bits .bf16 = 32 ∨ (Rect.block (s := S1601536x16) S4096x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S1601536.size a
  hwx1_2 : ∀ i : grid1.Coords, EltTy.bits .i32 = 32 ∨ (Rect.block (s := S1601536) S4096.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096.size a ≤ S1601536.size a
  hwx1_3 : ∀ i : grid1.Coords, EltTy.bits .f32 = 32 ∨ (Rect.block (s := S1601536) S4096.size (cc1_transform_3 i) (hinb1_3 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x16_S1601536x1_S1601536x16_1_0_n_n_0_1_116 : GatherDims S50000x16 S1601536x1 S1601536x16 where
  offsetDims := [1]
  collapsedSliceDims := [0]
  operandBatchingDims := []
  startIndicesBatchingDims := []
  startIndexMap := [0]
  indexVectorDim := 1
  sliceSizes := ![1, 16]
  wf := gather_S50000x16_S1601536x1_S1601536x16_1_0_n_n_0_1_116_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S5000x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S4096x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4096x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S256x16 : Shape := ⟨2, ![256, 16]⟩
abbrev S2x1600000 : Shape := ⟨2, ![2, 1600000]⟩
abbrev S1600000 : Shape := ⟨1, ![1600000]⟩
abbrev S128x16 : Shape := ⟨2, ![128, 16]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1600000x16 : Shape := ⟨2, ![1600000, 16]⟩
abbrev S1600000x1x1 : Shape := ⟨3, ![1600000, 1, 1]⟩
abbrev S1 : Shape := ⟨1, ![1]⟩
abbrev S1x1x1 : Shape := ⟨3, ![1, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S256x16, .f32⟩
  | .hbm, ⟨2, _⟩ => ⟨S2x1600000, .i32⟩
  | .hbm, ⟨3, _⟩ => ⟨S1600000, .i32⟩
  | .hbm, ⟨4, _⟩ => ⟨S128x16, .f32⟩
  | .hbm, ⟨5, _⟩ => ⟨S128x16, .f32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x16, .f32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S1600000x16, .f32⟩
  | .hbm, ⟨30, _⟩ => ⟨S1600000x16, .f32⟩
  | .hbm, ⟨31, _⟩ => ⟨S1600000x1, .i32⟩
  | .hbm, ⟨32, _⟩ => ⟨S_, .i32⟩
  | .hbm, ⟨33, _⟩ => ⟨S1600000x1, .i32⟩
  | .hbm, ⟨34, _⟩ => ⟨S1600000x1, .i1⟩
  | .hbm, ⟨35, _⟩ => ⟨S_, .i32⟩
  | .hbm, ⟨36, _⟩ => ⟨S1600000x1, .i32⟩
  | .hbm, ⟨37, _⟩ => ⟨S1600000x1, .i32⟩
  | .hbm, ⟨38, _⟩ => ⟨S1600000x1, .i32⟩
  | .hbm, ⟨39, _⟩ => ⟨S1600000x1x1, .i32⟩
  | .hbm, ⟨40, _⟩ => ⟨S1, .i32⟩
  | .hbm, ⟨41, _⟩ => ⟨S_, .i32⟩
  | .hbm, ⟨42, _⟩ => ⟨S1600000x1x1, .i32⟩
  | .hbm, ⟨43, _⟩ => ⟨S1600000x1x1, .i1⟩
  | .hbm, ⟨44, _⟩ => ⟨S1x1x1, .i32⟩
  | .hbm, ⟨45, _⟩ => ⟨S1600000x1x1, .i32⟩
  | .hbm, ⟨46, _⟩ => ⟨S1600000x1x1, .i1⟩
  | .hbm, ⟨47, _⟩ => ⟨S1600000x1x1, .i1⟩
  | .hbm, ⟨48, _⟩ => ⟨S_, .i1⟩
  | .hbm, ⟨49, _⟩ => ⟨S1600000x1, .i1⟩
  | .hbm, ⟨50, _⟩ => ⟨S1600000x1, .f32⟩
  | .hbm, ⟨51, _⟩ => ⟨S_, .f32⟩
  | .hbm, ⟨52, _⟩ => ⟨S1600000x1, .f32⟩
  | .hbm, ⟨53, _⟩ => ⟨S1600000x1, .f32⟩
  | .hbm, ⟨54, _⟩ => ⟨S1600000, .f32⟩
  | .hbm, ⟨55, _⟩ => ⟨S1600000, .f32⟩
  | .hbm, ⟨56, _⟩ => ⟨S1600000, .f32⟩
  | .hbm, ⟨57, _⟩ => ⟨S_, .f32⟩
  | .hbm, ⟨58, _⟩ => ⟨S1600000, .f32⟩
  | .hbm, ⟨59, _⟩ => ⟨S1600000, .f32⟩
  | .hbm, ⟨60, _⟩ => ⟨S_, .f32⟩
  | .hbm, ⟨61, _⟩ => ⟨S1600000, .f32⟩
  | .hbm, ⟨62, _⟩ => ⟨S1600000, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1600000, .f32⟩
  | .hbm, ⟨67, _⟩ => ⟨S1600000, .f32⟩
  | .hbm, ⟨68, _⟩ => ⟨S_, .f32⟩
  | .hbm, ⟨69, _⟩ => ⟨S1600000, .f32⟩
  | .hbm, ⟨70, _⟩ => ⟨S1600000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_cst : Ref sig .tc := ⟨.hbm, 51, rfl⟩
abbrev main_call0_v14 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst : Ref sig .tc := ⟨.hbm, 57, rfl⟩
abbrev main_v28 : Ref sig .tc := ⟨.hbm, 58, rfl⟩
abbrev main_v29 : Ref sig .tc := ⟨.hbm, 59, rfl⟩
abbrev main_cst_3 : Ref sig .tc := ⟨.hbm, 60, rfl⟩
abbrev main_v30 : Ref sig .tc := ⟨.hbm, 61, rfl⟩
abbrev main_v31 : Ref sig .tc := ⟨.hbm, 62, rfl⟩
abbrev main_cst_4 : Ref sig .tc := ⟨.hbm, 63, rfl⟩
abbrev main_cst_5 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v32 : Ref sig .tc := ⟨.hbm, 70, rfl⟩

abbrev nD : Nat := 1
abbrev τ : Topo := Topo.v7x

variable {F : FTy → Type} [FloatOps F]

class Facts₀ : Prop where
  slices_S256x16_S128x16_0_0 : S256x16.Slices ![0, 0] S128x16
  slices_S256x16_S128x16_128_0 : S256x16.Slices ![128, 0] S128x16
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S1600000x1 : S_.BroadcastsInDim S1600000x1 (![] : Fin 0 → Fin S1600000x1.rank)
  shapeCasts_S1600000x1_S1600000x1x1 : S1600000x1.ShapeCasts S1600000x1x1
  bcast_S_S1600000x1x1 : S_.BroadcastsInDim S1600000x1x1 (![] : Fin 0 → Fin S1600000x1x1.rank)
  bcast_S1_S1x1x1_2 : S1.BroadcastsInDim S1x1x1 (![2] : Fin 1 → Fin S1x1x1.rank)
  bcast_S1x1x1_S1600000x1x1_0_1_2 : S1x1x1.BroadcastsInDim S1600000x1x1 (![0, 1, 2] : Fin 3 → Fin S1600000x1x1.rank)
  reducesTo_S1600000x1x1_S1600000x1_d2 : S1600000x1x1.ReducesTo [2] S1600000x1
  h_S_ : 0 < S_.numel
  shapeCasts_S1600000x1_S1600000 : S1600000x1.ShapeCasts S1600000
  gather_S50000x128_S1600000x1_S1600000x128_1_0_n_n_0_1_1128_wf : GatherDims.WF S50000x128 S1600000x1 S1600000x128 [1] [0] [] [0] [] 1 ![1, 128]
  dot_S1600000x128_S128x16_S1600000x16_1_0_0_1_n_n_wf : DotDims.WF S1600000x128 S128x16 S1600000x16 [1] [0] [0] [1] [] []
  gather_S1600000x16_S1600000x1x1_S1600000x1_n_1_0_0_1_2_11_wf : GatherDims.WF S1600000x16 S1600000x1x1 S1600000x1 [] [1] [0] [1] [0] 2 ![1, 1]

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S1600000x128_S128x16_S1600000x16_1_0_0_1_n_n : DotDims S1600000x128 S128x16 S1600000x16 where
  lhsContracting := [1]
  rhsContracting := [0]
  lhsNonContracting := [0]
  rhsNonContracting := [1]
  lhsBatch := []
  rhsBatch := []
  wf := dot_S1600000x128_S128x16_S1600000x16_1_0_0_1_n_n_wf
def gather_S1600000x16_S1600000x1x1_S1600000x1_n_1_0_0_1_2_11 : GatherDims S1600000x16 S1600000x1x1 S1600000x1 where
  offsetDims := []
  collapsedSliceDims := [1]
  operandBatchingDims := [0]
  startIndicesBatchingDims := [0]
  startIndexMap := [1]
  indexVectorDim := 2
  sliceSizes := ![1, 1]
  wf := gather_S1600000x16_S1600000x1x1_S1600000x1_n_1_0_0_1_2_11_wf

class Facts : Prop extends Facts₀ where

variable [Facts]
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.EdgeScore.lean ====
/-
  The function both programs compute, index by index over the extended reals.

  Every edge `e` names two nodes (a source and a destination) and a relation. A node number is read as array
  indexing reads it: a negative number counts from the end, and the result is clamped into the table. The relation
  number is clamped into `[0, 15]`. The logit of edge `e` for relation `r` is
  `x[src e] · w[0:128, r] + x[dst e] · w[128:256, r]`; the score of the edge is the logit at its own relation; the
  result is the logistic function of the score, clamped between two fixed constants.
-/
import Idealize.ShloMosaic.PureOps.Ideal
import Idealize.ShloMosaic.Lib.ValueIdx
import proofs.«429399_j64991445123873_3_alg».proof.Proof.LibRowOps

noncomputable section

open scoped BigOperators

namespace EdgeScore

open Idealize.ShloMosaic Idealize.ShloMosaic.ValueIdx

abbrev SX : Shape := ⟨2, ![50000, 128]⟩
abbrev SW : Shape := ⟨2, ![256, 16]⟩
abbrev SEI : Shape := ⟨2, ![2, 1600000]⟩
abbrev SET : Shape := ⟨1, ![1600000]⟩

/-- A node number as array indexing reads it: a negative one counts from the end of the 50000 rows. -/
def wrapNode (b : BitVec 32) : BitVec 32 := Scalar.select (IntOp.cmpi .slt b 0#32) (IntOp.addi b 50000#32) b

/-- The row of the node table an endpoint names: wrapped, then clamped into the table. -/
def nodeRow (b : BitVec 32) : Fin 50000 := RowOps.clampRow 50000 (by decide) (wrapNode b)

/-- The relation column a relation number names: clamped into `[0, 15]`. -/
def relCol (b : BitVec 32) : Fin 16 := RowOps.clampRow 16 (by decide) b

/-- Node `n` projected on relation `r` by the 128 weight rows starting at row `off`. -/
def proj (x : FVec Ideal SX .f32) (w : FVec Ideal SW .f32) (off : Nat) (hoff : off + 128 ≤ 256) (n : Fin 50000) (r : Fin 16) : EReal :=
  ∑ k : Fin 128, x (ix2 n k) * w (ix2 ⟨off + k.val, by have := k.isLt; omega⟩ r)

/-- The logit of edge `e` for relation `r`: the source node by the first 128 weight rows plus the destination node by
    the last 128. -/
def logit (x : FVec Ideal SX .f32) (w : FVec Ideal SW .f32) (ei : IVec SEI 32) (e : Fin 1600000) (r : Fin 16) : EReal :=
  proj x w 0 (by decide) (nodeRow (ei (ix2 0 e))) r + proj x w 128 (by decide) (nodeRow (ei (ix2 1 e))) r

/-- The two clamping constants, as the binary values both programs carry. -/
def lo : EReal := Ideal.ofBits .f32 0x3727C5AC#32
def hi : EReal := Ideal.ofBits .f32 0x3F7FFF58#32

/-- A score turned into a clamped probability. -/
def prob (s : EReal) : EReal := min hi (max lo (Ideal.logistic s))

/-- The result: per edge, the clamped logistic of the logit at the edge's own relation. -/
def G (x : FVec Ideal SX .f32) (w : FVec Ideal SW .f32) (ei : IVec SEI 32) (et : IVec SET 32) : FVec Ideal SET .f32 :=
  fun i => prob (logit x w ei (i 0) (relCol (et i)))

/-- A sum against an indicator picks one term: over the extended reals `0 · a = 0` for every `a`, infinite or not. -/
theorem sum_mul_indicator (a : Fin 16 → EReal) (c : Fin 16) :
    ∑ r : Fin 16, a r * (if r = c then (1 : EReal) else 0) = a c := by
  rw [Finset.sum_eq_single c]
  · rw [if_pos rfl, mul_one]
  · intro r _ hr; rw [if_neg hr, mul_zero]
  · intro h; exact absurd (Finset.mem_univ c) h

end EdgeScore

end
-- ==== Proof.ScoreValue.lean ====
/-
  The edge scores: what the second pallas_call leaves in its output array.

  The call runs over 391 grid points. Point `t` works on the 4096 padded edges `4096 t, …, 4096 t + 4095`: it reads
  their rows of the gathered source projections and of the gathered destination projections (16 columns, one per
  relation) and their relation numbers. For each edge it adds the two rows, multiplies column `r` by 1 when `r` is the
  edge's relation number and by 0 otherwise, sums the 16 products, takes the logistic function of the sum and clamps
  it between the two fixed constants. The 4096 results are the point's block of the output.

  Three steps lead from the block to the array.
  * The arithmetic of one block, read at its edge `p`: the sum over a row is a sum over the 16 columns; the column
    number compared with the relation number, widened to a word and read as a signed integer, is 1 or 0; the relation
    numbers, laid out as a column and repeated along the rows, give at `(p, r)` the number of edge `p`.
  * What point `t` writes back is block `t` of the array of all scores: every window's block number is `t` along
    the edges (and 0 along the columns), so entry `(p, r)` of an input block is entry `(4096 t + p, r)` of its array.
  * Edge `e` lies in the block of point `e / 4096`, and every point writes its block back, so after the last point
    the output array holds the score of every edge.
-/
import proofs.«429399_j64991445123873_3_alg».proof.Proof.Gen.KernelIdeal.Frame
import proofs.«429399_j64991445123873_3_alg».proof.Proof.EdgeScore
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ScoreValue

open Cert.KernelIdeal Cert.KernelIdeal.Gen
open Idealize.ShloMosaic Idealize.ShloMosaic.TcCoe Idealize.SL.Sem Idealize.ShloMosaic.ValueIdx

/-! ## The arithmetic of one block -/

/-- The result of comparing two words for equality is one bit; widened to 32 bits and read as a signed integer it is
    the number 1 when the words are equal and 0 when they are not. -/
theorem indicator_word (a b : BitVec 32) :
    ((((IntOp.cmpi .eq a b).setWidth 32).toInt : ℝ) : EReal) = if a = b then (1 : EReal) else 0 := by
  by_cases h : a = b
  · subst h
    rw [if_pos rfl]
    have : IntOp.cmpi .eq a a = 1#1 := by simp [IntOp.cmpi]
    rw [this]; norm_num
  · rw [if_neg h]
    have hb : (a == b) = false := beq_eq_false_iff_ne.mpr h
    have : IntOp.cmpi .eq a b = 0#1 := by
      show BitVec.ofBool (a == b) = 0#1
      rw [hb]; rfl
    rw [this]; norm_num

/-- 4096 words written as a column (4096 × 1) and repeated along the rows of a 4096 × 16 array: entry `(p, r)` is
    word `p`, whatever `r`. -/
theorem column_spread (v : S4096.Idx → BitVec 32) (h1 : S4096.ShapeCasts S4096x1) (h2 : S4096x1.Broadcasts S4096x16)
    (p : Fin 4096) (r : Fin 16) :
    broadcastTo S4096x16 (shapeCast S4096x1 v h1) h2 (ix2 p r) = v (ix1 p) := by
  refine (broadcastTo_apply _ h2 (ix2 p r) (ix2 p (0 : Fin 1)) fun ax => ?_).trans ?_
  · match ax with
    | ⟨0, _⟩ => rfl
    | ⟨1, _⟩ => rfl
  · refine shapeCast_apply v h1 _ _ ?_
    rw [Shape.rowMajor_val_two, Shape.rowMajor_val_one]
    show p.val = p.val * 1 + 0
    omega

/-- Summing a 4096 × 16 array over its columns: the entry that column `r` contributes to row `p` is entry `(p, r)`. -/
theorem lift_row (h : S4096x16.Reduces [1] S4096) (p : Fin 4096) (r : Fin 16) : h.lift (ix1 p) r = ix2 p r := by
  funext a
  match a with
  | ⟨0, _⟩ => rfl
  | ⟨1, _⟩ => rfl

/-- The 0/1 factor at `(p, r)`: the column number `r` compared with the block's `p`-th relation number. -/
theorem indicator_entry (x2 : S4096.Idx → BitVec 32) (p : Fin 4096) (r : Fin 16) :
    (sitofp (F := Ideal) .f32 (extui 32 (cmpi .eq (iota .tc S4096x16 32 [1] iota_S4096x16_d1_w32)
        (broadcastTo S4096x16 (shapeCast S4096x1 (shapeCast S4096 x2 shapeCasts_S4096_S4096) shapeCasts_S4096_S4096x1)
          broadcasts_S4096x1_S4096x16)) natLt_1_32) : FVec Ideal S4096x16 .f32) (ix2 p r)
      = if BitVec.ofNat 32 r.val = x2 (ix1 p) then (1 : EReal) else 0 := by
  show ((((IntOp.cmpi .eq (iota .tc S4096x16 32 [1] iota_S4096x16_d1_w32 (ix2 p r))
      (broadcastTo S4096x16 (shapeCast S4096x1 (shapeCast S4096 x2 shapeCasts_S4096_S4096) shapeCasts_S4096_S4096x1)
        broadcasts_S4096x1_S4096x16 (ix2 p r))).setWidth 32).toInt : ℝ) : EReal) = _
  rw [indicator_word, iota_single_apply, column_spread, shapeCast_self]

/-- What the body computes for edge `p` of a block, from the block's rows of source projections `x0`, of destination
    projections `x1` and its relation numbers `x2`: the clamped logistic of the sum over the 16 columns of
    `(x0 + x1)(p, r)` times the indicator of "`r` is edge `p`'s relation number". Changing the float format of the
    projections changes nothing over the extended reals, and the sum starts from zero. -/
theorem block_score (x0 x1 : S4096x16.Idx → EReal) (x2 : S4096.Idx → BitVec 32) (p : Fin 4096) :
    k1_pay1 (F := Ideal) x0 x1 x2 (ix1 p)
      = EdgeScore.prob (∑ r : Fin 16, (x0 (ix2 p r) + x1 (ix2 p r))
          * (if BitVec.ofNat 32 r.val = x2 (ix1 p) then (1 : EReal) else 0)) := by
  unfold k1_pay1 EdgeScore.prob EdgeScore.hi EdgeScore.lo
  refine congrArg (min _) (congrArg (max _) (congrArg Ideal.logistic ?_))
  refine (Ideal.multiReduction_add_single _ _ reduces_S4096x16_S4096 _ _ (ix1 p)).trans ?_
  refine Finset.sum_congr rfl ?_
  intro (r : Fin 16) _
  refine (congrArg (mulf _ _) (lift_row _ p r)).trans ?_
  rw [mulf_apply, addf_apply, extf_apply, extf_apply, shapeCast_self, shapeCast_self, indicator_entry]

/-! ## From the blocks to the array -/

/- The buffer contents on entry to the region: a parameter, so that the result can be used at whatever the host
   operations before the region have left. -/
variable (V : (c : Dev nD) → (b : Ref sig .tc) → Buf (Elt Ideal) ((c : Thread nD τ).loc b))

/-- The gathered source projections (one row per padded edge) as the region finds them. -/
abbrev srcG (c : Dev nD) : S1601536x16.Idx → EReal := V c main_v15
/-- The gathered destination projections as the region finds them. -/
abbrev dstG (c : Dev nD) : S1601536x16.Idx → EReal := V c main_v24
/-- The padded relation numbers as the region finds them. -/
abbrev relPad (c : Dev nD) : S1601536.Idx → BitVec 32 := V c main_v6
/-- The array behind the output window after the last grid point. -/
abbrev outArr (c : Dev nD) : S1601536.Idx → EReal := (dat1 (F := Ideal) V c).arrAt 3 cfg1.N

/-- The body's loads and its store take their buffers whole: the offsets are all zero. -/
theorem zero_off1 : (![0] : Fin 1 → Nat) = fun _ => 0 := funext fun a => by fin_cases a; rfl
theorem zero_off2 : (![0, 0] : Fin 2 → Nat) = fun _ => 0 := funext fun a => by fin_cases a <;> rfl

/-- The score of padded edge `e`, from the arrays as the region finds them. -/
def scoreAt (c : Dev nD) (e : Fin 1601536) : EReal :=
  EdgeScore.prob (∑ r : Fin 16, (srcG V c (ix2 e r) + dstG V c (ix2 e r))
    * (if BitVec.ofNat 32 r.val = relPad V c (ix1 e) then (1 : EReal) else 0))

/-- The scores of all padded edges as one array. -/
abbrev scoreArr (c : Dev nD) : S1601536.Idx → EReal := fun i => scoreAt V c (i 0)

/-- Every window of the call moves with the grid point: at point `t` its block number is `t` along the edges and 0
    along the columns. -/
theorem block_numbers : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = t.val ∧ win1_3.index t (0 : Fin 1) = t.val :=
  (by decide +kernel : ∀ t : Fin grid1.N, _)

/-- Entry `(p, r)` of point `t`'s block of source projections is row `4096 t + p`, column `r` of the array. -/
theorem src_block (c : Dev nD) (t : Fin cfg1.N) (p : Fin 4096) (r : Fin 16) (e : Fin 1601536)
    (he : e.val = 4096 * t.val + p.val) :
    (iblk1 (F := Ideal) V c 0 t : S4096x16.Idx → EReal) (ix2 p r) = srcG V c (ix2 e r) := by
  obtain ⟨e0, e1, -⟩ := block_numbers t
  show V c main_v15 (((cfg1.win 0).blk t).view.emb (ix2 p r)) = V c main_v15 (ix2 e r)
  refine congrArg (V c main_v15) (funext fun a => Fin.ext ?_)
  match a with
  | ⟨0, _⟩ => show win1_0.index t (0 : Fin 2) * 4096 + 1 * p.val = e.val; omega
  | ⟨1, _⟩ => show win1_0.index t (1 : Fin 2) * 16 + 1 * r.val = r.val; omega

/-- The same for the destination projections. -/
theorem dst_block (c : Dev nD) (t : Fin cfg1.N) (p : Fin 4096) (r : Fin 16) (e : Fin 1601536)
    (he : e.val = 4096 * t.val + p.val) :
    (iblk1 (F := Ideal) V c 1 t : S4096x16.Idx → EReal) (ix2 p r) = dstG V c (ix2 e r) := by
  obtain ⟨-, -, e0, e1, -⟩ := block_numbers t
  show V c main_v24 (((cfg1.win 1).blk t).view.emb (ix2 p r)) = V c main_v24 (ix2 e r)
  refine congrArg (V c main_v24) (funext fun a => Fin.ext ?_)
  match a with
  | ⟨0, _⟩ => show win1_1.index t (0 : Fin 2) * 4096 + 1 * p.val = e.val; omega
  | ⟨1, _⟩ => show win1_1.index t (1 : Fin 2) * 16 + 1 * r.val = r.val; omega

/-- Entry `p` of point `t`'s block of relation numbers is the number of edge `4096 t + p`. -/
theorem rel_block (c : Dev nD) (t : Fin cfg1.N) (p : Fin 4096) (e : Fin 1601536)
    (he : e.val = 4096 * t.val + p.val) :
    (iblk1 (F := Ideal) V c 2 t : S4096.Idx → BitVec 32) (ix1 p) = relPad V c (ix1 e) := by
  obtain ⟨-, -, -, -, e0, -⟩ := block_numbers t
  show V c main_v6 (((cfg1.win 2).blk t).view.emb (ix1 p)) = V c main_v6 (ix1 e)
  refine congrArg (V c main_v6) (funext fun a => Fin.ext ?_)
  match a with
  | ⟨0, _⟩ => show win1_2.index t (0 : Fin 1) * 4096 + 1 * p.val = e.val; omega

/-- What grid point `t` writes back is block `t` of the score array: its entry `p` is the body's result for edge
    `p` of the three input blocks, and those blocks hold the rows and the relation number of edge `4096 t + p`, which
    is where entry `p` of the output's block sits in the array. -/
theorem flushed_score (c : Dev nD) (t : Fin cfg1.N) :
    (dat1 (F := Ideal) V c).flushed 3 t = ((cfg1.win 3).blk t).view.read (Elt Ideal) (scoreArr V c) := by
  show (cfg1.win 3).cut (grid1.coords t) ((dat1 (F := Ideal) V c).after 3 t) = _
  rw [after1_3]
  unfold out1_3
  rw [View.canon_unit_zero zero_off1]
  simp only [View.ld_unit_zero (S := S4096x16) zero_off2, View.ld_unit_zero (S := S4096) zero_off1]
  funext j
  obtain ⟨p, rfl⟩ : ∃ p : Fin 4096, j = ix1 p := ⟨j 0, eq_ix1 j⟩
  have ht : t.val < 391 := lt_of_lt_of_eq t.isLt N_1
  obtain ⟨-, -, -, -, -, e3⟩ := block_numbers t
  have hp := p.isLt
  have hemb : ((((cfg1.win 3).blk t).view.emb (ix1 p)) 0 : Fin 1601536).val = 4096 * t.val + p.val := by
    show win1_3.index t (0 : Fin 1) * 4096 + 1 * p.val = _
    omega
  show k1_pay1 (F := Ideal) (iblk1 V c 0 t) (iblk1 V c 1 t) (iblk1 V c 2 t) (ix1 p)
    = scoreAt V c ((((cfg1.win 3).blk t).view.emb (ix1 p)) 0)
  refine (block_score (iblk1 V c 0 t) (iblk1 V c 1 t) (iblk1 V c 2 t) p).trans ?_
  unfold scoreAt
  refine congrArg EdgeScore.prob (Finset.sum_congr rfl fun r _ => ?_)
  rw [src_block V c t p r _ hemb, dst_block V c t p r _ hemb, rel_block V c t p _ hemb]

/-- An edge lies in grid point `t`'s block of the output exactly when it is one of the 4096 edges from `4096 t` on. -/
theorem in_block (t : Fin cfg1.N) (i : S1601536.Idx) :
    i ∈ ((cfg1.win 3).blk t).view.set
      ↔ ∀ a : Fin 1, win1_3.index t a * S4096.size a ≤ (i a).val ∧ (i a).val < win1_3.index t a * S4096.size a + S4096.size a := by
  show i ∈ ((View.whole main_v25).slice (win1_3.rect t)).set ↔ _
  rw [View.set_slice_whole, Rect.mem_set_unit]
  exact Iff.rfl

/-- Every edge is written back by some grid point: edge `e` by point `e / 4096`, which is below 391 because
    `391 · 4096 = 1601536`. -/
theorem covered (i : S1601536.Idx) :
    ∃ t : Fin cfg1.N, (cfg1.win 3).flush t = true ∧ i ∈ ((cfg1.win 3).blk t).view.set := by
  have hi : (i 0).val < 1601536 := (i 0).isLt
  have hN : cfg1.N = 391 := N_1
  have hlt : (i 0).val / 4096 < cfg1.N := by rw [hN]; omega
  obtain ⟨-, -, -, -, -, e3⟩ := block_numbers ⟨(i 0).val / 4096, hlt⟩
  refine ⟨⟨(i 0).val / 4096, hlt⟩, flush1_3 _, ?_⟩
  rw [in_block]
  intro a
  match a with
  | ⟨0, _⟩ =>
    show win1_3.index ⟨(i 0).val / 4096, hlt⟩ (0 : Fin 1) * 4096 ≤ (i 0).val
      ∧ (i 0).val < win1_3.index ⟨(i 0).val / 4096, hlt⟩ (0 : Fin 1) * 4096 + 4096
    rw [e3]
    show (i 0).val / 4096 * 4096 ≤ (i 0).val ∧ (i 0).val < (i 0).val / 4096 * 4096 + 4096
    omega

/-- The output array after the last grid point holds every edge's score: each point writes back its block of the score
    array, and the blocks cover the array. -/
theorem score_array (c : Dev nD) : outArr V c = scoreArr V c :=
  (dat1 (F := Ideal) V c).arrAt_eq_of_cover 3 (scoreArr V c) (fun t _ => flushed_score V c t) covered

/-- The output array at padded edge `e`: the clamped logistic of the sum, over the 16 relations `r`, of the edge's
    source projection plus its destination projection on `r`, times 1 if `r` is the edge's relation number and 0 if
    not. -/
theorem score_final (c : Dev nD) (e : Fin 1601536) :
    outArr V c (ix1 e)
      = EdgeScore.prob (∑ r : Fin 16, (srcG V c (ix2 e r) + dstG V c (ix2 e r))
          * (if BitVec.ofNat 32 r.val = relPad V c (ix1 e) then (1 : EReal) else 0)) :=
  congrFun (score_array V c) (ix1 e)

end Cert.KernelIdeal.ScoreValue

end
-- ==== Proof.ProjValue.lean ====
/-
  The node projections: what the first pallas_call leaves in its two output arrays.

  The call runs over ten grid points. At point `t` the body sees rows `5000 t … 5000 t + 4999` of the 50000×128
  node features and the whole 128×32 weight array (the two 128×16 weight halves side by side), multiplies the block
  of features by the weights into a zero accumulator, and stores columns 0 … 15 of the 5000×32 product as block `t`
  of the first output and columns 16 … 31 as block `t` of the second. Over the extended reals the roundings to the
  narrow float format and back are the identity, so entry `(p, q)` of the product is exactly
  `∑ k, x (5000 t + p, k) · w (k, q)`.

  Every block written is therefore the corresponding block of ONE function of the whole arrays — row `n` of the
  features times a fixed set of 16 weight columns — and the ten row blocks tile the 50000 rows (row `n` lies in
  block `n / 5000`). Hence after the last point each output array is that function: row `n` of the first output is
  row `n` of the features times weight columns 0 … 15, row `n` of the second is row `n` times columns 16 … 31.
-/
import proofs.«429399_j64991445123873_3_alg».proof.Proof.Gen.KernelIdeal.Frame
import proofs.«429399_j64991445123873_3_alg».proof.Proof.EdgeScore
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ProjValue

open Cert.KernelIdeal Cert.KernelIdeal.Gen
open Idealize.ShloMosaic Idealize.ShloMosaic.TcCoe Idealize.SL.Sem Idealize.ShloMosaic.ValueIdx

/-! ## The product of one block of feature rows with the weights, entry by entry -/

/-- The left operand of the product is read at the output's row … -/
theorem lhs_row (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
/-- … and at the summation index as its column; -/
theorem lhs_col (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
/-- the right operand at the summation index as its row … -/
theorem rhs_row (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
/-- … and at the output's column. -/
theorem rhs_col (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- Entry `(p, q)` of the product of a 5000×128 block `x0` with the 128×32 weights `x1`: the sum over the 128
    shared coordinates of row `p` of the block times column `q` of the weights. Over the extended reals the
    roundings to the narrow format and back are the identity and the accumulator starts at zero, so nothing else
    is left of the body's arithmetic. -/
theorem prod_apply (x0 : Vec Ideal S5000x128 .f32) (x1 : Vec Ideal S128x32 .f32) (p : Fin 5000) (q : Fin 32) :
    k0_pay1 x0 x1 (ix2 p q) = ∑ k : Fin 128, x0 (ix2 p k) * x1 (ix2 k q) := by
  unfold k0_pay1
  refine (Ideal.matmul_constant_zero_apply dot_S5000x128_S128x32_S5000x32_1_0_0_1_n_n none _ _ (ix2 p q)).trans ?_
  rw [← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 p q) ((contrEquiv1 dot_S5000x128_S128x32_S5000x32_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x32_S5000x32_1_0_0_1_n_n.rhsIdx (ix2 p q) ((contrEquiv1 dot_S5000x128_S128x32_S5000x32_1_0_0_1_n_n 128 rfl rfl).symm k) = ix2 k q := funext fun a => Fin.ext (by
    match a with
    | ⟨0, _⟩ => exact (rhs_row _ _).trans hk
    | ⟨1, _⟩ => exact rhs_col _ _)
  rw [el, er, shapeCast_self]
  rfl

/-- Which of the 32 weight columns output column `r` of the first output reads: column `r` itself … -/
abbrev leftCol (r : Fin 16) : Fin 32 := ⟨r.val, by have := r.isLt; omega⟩
/-- … and of the second output: column `16 + r`. -/
abbrev rightCol (r : Fin 16) : Fin 32 := ⟨16 + r.val, by have := r.isLt; omega⟩

/-- What the body stores for the first output, entry `(p, q)`: the product's column `q`. -/
theorem left_apply (x0 : Vec Ideal S5000x128 .f32) (x1 : Vec Ideal S128x32 .f32) (p : Fin 5000) (q : Fin 16) :
    k0_pay2 x0 x1 (ix2 p q) = ∑ k : Fin 128, x0 (ix2 p k) * x1 (ix2 k (leftCol q)) := by
  unfold k0_pay2
  refine (RowOps.colSlice_apply slices_S5000x32_o0_0_S5000x16 (k0_pay1 x0 x1) p q (by have := q.isLt; omega)).trans ?_
  refine (prod_apply x0 x1 p _).trans ?_
  refine Finset.sum_congr rfl fun k _ => ?_
  congr 3
  exact Fin.ext (Nat.zero_add _)

/-- What the body stores for the second output, entry `(p, q)`: the product's column `16 + q`. -/
theorem right_apply (x0 : Vec Ideal S5000x128 .f32) (x1 : Vec Ideal S128x32 .f32) (p : Fin 5000) (q : Fin 16) :
    k0_pay3 x0 x1 (ix2 p q) = ∑ k : Fin 128, x0 (ix2 p k) * x1 (ix2 k (rightCol q)) := by
  unfold k0_pay3
  refine (RowOps.colSlice_apply slices_S5000x32_o0_16_S5000x16 (k0_pay1 x0 x1) p q (by have := q.isLt; omega)).trans ?_
  exact prod_apply x0 x1 p _

/-! ## The whole-array function each output ends holding -/

/-- Rows of a 50000×128 array times 16 chosen columns of a 128×32 array: entry `(n, r)` is the sum over `k` of
    `X (n, k) · W (k, col r)`. -/
def rowsTimes (X : S50000x128.Idx → EReal) (W : S128x32.Idx → EReal) (col : Fin 16 → Fin 32) : S50000x16.Idx → EReal :=
  fun i => ∑ k : Fin 128, X (ix2 (⟨(i 0).val, idx2_lt0 i⟩ : Fin 50000) k) * W (ix2 k (col ⟨(i 1).val, idx2_lt1 i⟩))

/-- One block of it. If `x0` is rows `5000 b … 5000 b + 4999` of `X` and `x1` is all of `W`, then entry `j` of what the
    body stores for the first output is entry `i` of `rowsTimes X W leftCol`, where `i` is `j` moved down by `5000 b`
    rows. -/
theorem left_block (x0 : Vec Ideal S5000x128 .f32) (x1 : Vec Ideal S128x32 .f32)
    (X : S50000x128.Idx → EReal) (W : S128x32.Idx → EReal) (b : Nat)
    (hx : ∀ (p : Fin 5000) (k : Fin 128) (n : Fin 50000), n.val = b * 5000 + p.val → x0 (ix2 p k) = X (ix2 n k))
    (hw : ∀ (k : Fin 128) (q : Fin 32), x1 (ix2 k q) = W (ix2 k q))
    (j : S5000x16.Idx) (i : S50000x16.Idx) (h0 : (i 0).val = b * 5000 + (j 0).val) (h1 : (i 1).val = (j 1).val) :
    k0_pay2 x0 x1 j = rowsTimes X W leftCol i := by
  obtain ⟨p, q, rfl⟩ : ∃ (p : Fin 5000) (q : Fin 16), j = ix2 p q := ⟨j 0, j 1, eq_ix2 j⟩
  rw [left_apply]
  unfold rowsTimes
  refine Finset.sum_congr rfl fun k _ => ?_
  rw [hx p k ⟨(i 0).val, idx2_lt0 i⟩ h0, hw]
  have e : (⟨(i 1).val, idx2_lt1 i⟩ : Fin 16) = q := Fin.ext h1
  rw [e]

/-- The same for the second output. -/
theorem right_block (x0 : Vec Ideal S5000x128 .f32) (x1 : Vec Ideal S128x32 .f32)
    (X : S50000x128.Idx → EReal) (W : S128x32.Idx → EReal) (b : Nat)
    (hx : ∀ (p : Fin 5000) (k : Fin 128) (n : Fin 50000), n.val = b * 5000 + p.val → x0 (ix2 p k) = X (ix2 n k))
    (hw : ∀ (k : Fin 128) (q : Fin 32), x1 (ix2 k q) = W (ix2 k q))
    (j : S5000x16.Idx) (i : S50000x16.Idx) (h0 : (i 0).val = b * 5000 + (j 0).val) (h1 : (i 1).val = (j 1).val) :
    k0_pay3 x0 x1 j = rowsTimes X W rightCol i := by
  obtain ⟨p, q, rfl⟩ : ∃ (p : Fin 5000) (q : Fin 16), j = ix2 p q := ⟨j 0, j 1, eq_ix2 j⟩
  rw [right_apply]
  unfold rowsTimes
  refine Finset.sum_congr rfl fun k _ => ?_
  rw [hx p k ⟨(i 0).val, idx2_lt0 i⟩ h0, hw]
  have e : (⟨(i 1).val, idx2_lt1 i⟩ : Fin 16) = q := Fin.ext h1
  rw [e]

/-! ## From the ten blocks to the two arrays -/

/- The buffer contents on entry to the region: a parameter, so that the result can be used at whatever the host
   operations before the region have left. -/
variable (V : (c : Dev nD) → (b : Ref sig .tc) → Buf (Elt Ideal) ((c : Thread nD τ).loc b))

/-- The node features as the region finds them. -/
abbrev xArr (c : Dev nD) : S50000x128.Idx → EReal := V c main_arg0
/-- The two weight halves side by side (128 rows, 32 columns) as the region finds them. -/
abbrev wcatArr (c : Dev nD) : S128x32.Idx → EReal := V c main_v2
/-- The array behind output window 2 after the last grid point. -/
abbrev srcArr (c : Dev nD) : S50000x16.Idx → EReal := (dat0 (F := Ideal) V c).arrAt 2 cfg0.N
/-- The array behind output window 3 after the last grid point. -/
abbrev dstArr (c : Dev nD) : S50000x16.Idx → EReal := (dat0 (F := Ideal) V c).arrAt 3 cfg0.N

/-- The offsets of a whole-block access, all zero, in the two spellings they come in. -/
theorem zeroOff : (![0, 0] : Fin 2 → Nat) = fun _ => 0 := funext fun a => by fin_cases a <;> rfl

/-- Where each window's block sits at grid point `t`, in blocks: the feature window and both output windows at
    block row `t`, block column 0; the weight window always at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature window's block at point `t` is rows `5000 t … 5000 t + 4999` of the features. -/
theorem xblk_apply (c : Dev nD) (t : Fin cfg0.N) (p : Fin 5000) (k : Fin 128) (n : Fin 50000)
    (hn : n.val = t.val * 5000 + p.val) :
    (iblk0 (F := Ideal) V c 0 t : Vec Ideal S5000x128 .f32) (ix2 p k) = xArr V c (ix2 n k) := by
  obtain ⟨e00, e01, -⟩ := block_index t
  unfold iblk0
  rw [View.read_apply]
  show V c main_arg0 _ = V c main_arg0 _
  congr 1
  funext a
  apply Fin.ext
  match a with
  | ⟨0, _⟩ => show win0_0.index t (0 : Fin 2) * 5000 + 1 * p.val = n.val; rw [e00, hn]; omega
  | ⟨1, _⟩ => show win0_0.index t (1 : Fin 2) * 128 + 1 * k.val = k.val; rw [e01]; omega

/-- The weight window's block at every point is the whole weight array. -/
theorem wblk_apply (c : Dev nD) (t : Fin cfg0.N) (k : Fin 128) (q : Fin 32) :
    (iblk0 (F := Ideal) V c 1 t : Vec Ideal S128x32 .f32) (ix2 k q) = wcatArr V c (ix2 k q) := by
  obtain ⟨-, -, e10, e11, -⟩ := block_index t
  unfold iblk0
  rw [View.read_apply]
  show V c main_v2 _ = V c main_v2 _
  congr 1
  funext a
  apply Fin.ext
  match a with
  | ⟨0, _⟩ => show win0_1.index t (0 : Fin 2) * 128 + 1 * k.val = k.val; rw [e10]; omega
  | ⟨1, _⟩ => show win0_1.index t (1 : Fin 2) * 32 + 1 * q.val = q.val; rw [e11]; omega

/-- What point `t` writes back through output window 2 is block `t` of the features times the left 16 weight columns. -/
theorem src_block (c : Dev nD) (t : Fin cfg0.N) :
    (dat0 (F := Ideal) V c).flushed 2 t
      = ((cfg0.win 2).blk t).view.read (Elt Ideal) (rowsTimes (xArr V c) (wcatArr V c) leftCol) := by
  show (cfg0.win 2).cut (grid0.coords t) ((dat0 (F := Ideal) V c).after 2 t) = _
  rw [after0_2]
  unfold out0_2
  rw [View.canon_unit_zero zeroOff]
  simp only [View.ld_unit_zero (S := S5000x128) zeroOff, View.ld_unit_zero (S := S128x32) zeroOff]
  obtain ⟨-, -, -, -, e20, e21, -⟩ := block_index t
  funext j
  refine left_block (iblk0 (F := Ideal) V c 0 t) (iblk0 (F := Ideal) V c 1 t) (xArr V c) (wcatArr V c) t.val
    (fun p k n hn => xblk_apply V c t p k n hn) (fun k q => wblk_apply V c t k q)
    ((cfg0.win 2).xinj (grid0.coords t) j) (((cfg0.win 2).blk t).view.emb j) ?_ ?_
  · show win0_2.index t (0 : Fin 2) * 5000 + 1 * (j 0).val = t.val * 5000 + (j 0).val; rw [e20]; omega
  · show win0_2.index t (1 : Fin 2) * 16 + 1 * (j 1).val = (j 1).val; rw [e21]; omega

/-- The same through output window 3, with the right 16 weight columns. -/
theorem dst_block (c : Dev nD) (t : Fin cfg0.N) :
    (dat0 (F := Ideal) V c).flushed 3 t
      = ((cfg0.win 3).blk t).view.read (Elt Ideal) (rowsTimes (xArr V c) (wcatArr V c) rightCol) := by
  show (cfg0.win 3).cut (grid0.coords t) ((dat0 (F := Ideal) V c).after 3 t) = _
  rw [after0_3]
  unfold out0_3
  rw [View.canon_unit_zero zeroOff]
  simp only [View.ld_unit_zero (S := S5000x128) zeroOff, View.ld_unit_zero (S := S128x32) zeroOff]
  obtain ⟨-, -, -, -, -, -, e30, e31⟩ := block_index t
  funext j
  refine right_block (iblk0 (F := Ideal) V c 0 t) (iblk0 (F := Ideal) V c 1 t) (xArr V c) (wcatArr V c) t.val
    (fun p k n hn => xblk_apply V c t p k n hn) (fun k q => wblk_apply V c t k q)
    ((cfg0.win 3).xinj (grid0.coords t) j) (((cfg0.win 3).blk t).view.emb j) ?_ ?_
  · show win0_3.index t (0 : Fin 2) * 5000 + 1 * (j 0).val = t.val * 5000 + (j 0).val; rw [e30]; omega
  · show win0_3.index t (1 : Fin 2) * 16 + 1 * (j 1).val = (j 1).val; rw [e31]; omega

/-- An index of the first output array lies in point `t`'s block iff each coordinate lies in the block's range. -/
theorem mem_blk2 (t : Fin cfg0.N) (i : S50000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v3_0).slice (win0_2.rect t)).set ↔ _
  rw [View.set_slice_whole, Rect.mem_set_unit]
  exact Iff.rfl

/-- Likewise for the second output array. -/
theorem mem_blk3 (t : Fin cfg0.N) (i : S50000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v3_1).slice (win0_3.rect t)).set ↔ _
  rw [View.set_slice_whole, Rect.mem_set_unit]
  exact Iff.rfl

/-- Row `n` of the first output array lies in the block of point `n / 5000`: the ten blocks cover the array. -/
theorem covered2 (i : S50000x16.Idx) :
    ∃ t : Fin cfg0.N, (cfg0.win 2).flush t = true ∧ i ∈ ((cfg0.win 2).blk t).view.set := by
  have hi0 : (i 0).val < 50000 := (i 0).isLt
  have hi1 : (i 1).val < 16 := (i 1).isLt
  have ht : (i 0).val / 5000 < cfg0.N := by rw [show cfg0.N = 10 from N_0]; omega
  obtain ⟨-, -, -, -, e20, e21, -⟩ := block_index ⟨(i 0).val / 5000, ht⟩
  have q0 : win0_2.index ⟨(i 0).val / 5000, ht⟩ (0 : Fin 2) = (i 0).val / 5000 := e20
  refine ⟨⟨(i 0).val / 5000, ht⟩, flush0_2 _, ?_⟩
  rw [mem_blk2]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 16 ≤ (i 1).val ∧ (i 1).val < win0_2.index ⟨(i 0).val / 5000, ht⟩ (1 : Fin 2) * 16 + 16; omega

/-- Likewise for the second output array. -/
theorem covered3 (i : S50000x16.Idx) :
    ∃ t : Fin cfg0.N, (cfg0.win 3).flush t = true ∧ i ∈ ((cfg0.win 3).blk t).view.set := by
  have hi0 : (i 0).val < 50000 := (i 0).isLt
  have hi1 : (i 1).val < 16 := (i 1).isLt
  have ht : (i 0).val / 5000 < cfg0.N := by rw [show cfg0.N = 10 from N_0]; omega
  obtain ⟨-, -, -, -, -, -, e30, e31⟩ := block_index ⟨(i 0).val / 5000, ht⟩
  have q0 : win0_3.index ⟨(i 0).val / 5000, ht⟩ (0 : Fin 2) = (i 0).val / 5000 := e30
  refine ⟨⟨(i 0).val / 5000, ht⟩, flush0_3 _, ?_⟩
  rw [mem_blk3]
  intro a
  match a with
  | ⟨0, _⟩ => show win0_3.index ⟨(i 0).val / 5000, ht⟩ (0 : Fin 2) * 5000 ≤ (i 0).val ∧ (i 0).val < win0_3.index ⟨(i 0).val / 5000, ht⟩ (0 : Fin 2) * 5000 + 5000; omega
  | ⟨1, _⟩ => show win0_3.index ⟨(i 0).val / 5000, ht⟩ (1 : Fin 2) * 16 ≤ (i 1).val ∧ (i 1).val < win0_3.index ⟨(i 0).val / 5000, ht⟩ (1 : Fin 2) * 16 + 16; omega

/-- After the ten points the first output array is the features times the left 16 weight columns, row by row. -/
theorem src_array (c : Dev nD) : srcArr V c = rowsTimes (xArr V c) (wcatArr V c) leftCol :=
  (dat0 (F := Ideal) V c).arrAt_eq_of_cover 2 (rowsTimes (xArr V c) (wcatArr V c) leftCol)
    (fun t _ => src_block V c t) covered2

/-- And the second output array is the features times the right 16 weight columns. -/
theorem dst_array (c : Dev nD) : dstArr V c = rowsTimes (xArr V c) (wcatArr V c) rightCol :=
  (dat0 (F := Ideal) V c).arrAt_eq_of_cover 3 (rowsTimes (xArr V c) (wcatArr V c) rightCol)
    (fun t _ => dst_block V c t) covered3

/-- Row `n` of the first output array, after the ten points: row `n` of the features times weight columns 0 … 15. -/
theorem src_final (c : Dev nD) (n : Fin 50000) (r : Fin 16) :
    srcArr V c (ix2 n r) = ∑ k : Fin 128, xArr V c (ix2 n k) * wcatArr V c (ix2 k ⟨r.val, by have := r.isLt; omega⟩) :=
  congrFun (src_array V c) (ix2 n r)

/-- Row `n` of the second output array, after the ten points: row `n` of the features times weight columns 16 … 31. -/
theorem dst_final (c : Dev nD) (n : Fin 50000) (r : Fin 16) :
    dstArr V c (ix2 n r) = ∑ k : Fin 128, xArr V c (ix2 n k) * wcatArr V c (ix2 k ⟨16 + r.val, by have := r.isLt; omega⟩) :=
  congrFun (dst_array V c) (ix2 n r)

end Cert.KernelIdeal.ProjValue

end
-- ==== Proof.KernelHost.lean ====
/-
  The host operations around the two pallas_calls, read as values.

  Before the first call the two halves of the weight array (rows 0..127 and rows 128..255) are laid side by side
  into a 128×32 array. Between the calls the relation numbers are clamped into [0, 15] and padded with 1536 zeros,
  the 2×1600000 endpoint array is padded with 1536 zero columns, each of its two rows is wrapped (a negative node
  number counts from the end of the 50000 nodes) and used as the index column of a row gather from one of the two
  projection arrays the first call wrote. After the second call the first 1600000 entries of its output are kept.
-/
import proofs.«429399_j64991445123873_3_alg».proof.Proof.Gen.KernelIdeal.Frame
import Idealize.ShloMosaic.Lib.StableHlo.Run

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

/-- The two weight halves side by side. -/
def wcat (w : FVec F S256x16 .f32) : FVec F S128x32 .f32 :=
  concatenate S128x32 1
    [⟨S128x16, extractStridedSlice S128x16 ![0, 0] w Facts₀.slices_S256x16_S128x16_0_0⟩,
     ⟨S128x16, extractStridedSlice S128x16 ![128, 0] w Facts₀.slices_S256x16_S128x16_128_0⟩]
    Facts₀.concatenates_S128x16_S128x16_S128x32_d1

/-- The relation numbers clamped into [0, 15], then padded with 1536 zeros. -/
def relPadded (et : IVec S1600000 32) : IVec S1601536 32 :=
  pad S1601536 ![0] ![1536] ![0]
    (minsi (broadcastInDim S1600000 ![] Facts₀.bcast_S_S1600000 (constantI S_ 32 15#32))
      (maxsi (broadcastInDim S1600000 ![] Facts₀.bcast_S_S1600000 (constantI S_ 32 0#32)) et))
    (constantI S_ 32 0#32) Facts₀.pads_S1600000_S1601536_015360 Facts₀.h_S_

/-- The endpoint array padded with 1536 zero columns. -/
def endpointsPadded (ei : IVec S2x1600000 32) : IVec S2x1601536 32 :=
  pad S2x1601536 ![0, 0] ![0, 1536] ![0, 0] ei (constantI S_ 32 0#32) Facts₀.pads_S2x1600000_S2x1601536_000_015360 Facts₀.h_S_

/-- A row of node numbers, each wrapped (a negative one counts from the end), as an index column. -/
def wrappedColumn (row : IVec S1601536 32) : IVec S1601536x1 32 :=
  broadcastInDim S1601536x1 ![0] Facts₀.bcast_S1601536_S1601536x1_0
    (select (cmpi .slt row (broadcastInDim S1601536 ![] Facts₀.bcast_S_S1601536 (constantI S_ 32 0#32)))
      (addi row (broadcastInDim S1601536 ![] Facts₀.bcast_S_S1601536 (constantI S_ 32 50000#32))) row)

/-- The source endpoints' index column. -/
def srcColumn (ei : IVec S2x1600000 32) : IVec S1601536x1 32 :=
  wrappedColumn (shapeCast S1601536 (extractStridedSlice S1x1601536 ![0, 0] (endpointsPadded ei) Facts₀.slices_S2x1601536_S1x1601536_0_0) Facts₀.shapeCasts_S1x1601536_S1601536)

/-- The destination endpoints' index column. -/
def dstColumn (ei : IVec S2x1600000 32) : IVec S1601536x1 32 :=
  wrappedColumn (shapeCast S1601536 (extractStridedSlice S1x1601536 ![1, 0] (endpointsPadded ei) Facts₀.slices_S2x1601536_S1x1601536_1_0) Facts₀.shapeCasts_S1x1601536_S1601536)

variable (m : (ℓ : Loc nD τ sig) → Buf (Elt F) ℓ) (ρ : Dev nD → PrngReg)

/-! ## Before the first call -/

theorem entry0_x (c : Dev nD) : V1 m ρ c main_arg0 = m ((c : Thread nD τ).loc main_arg0) := by
  show StableHlo.after hostOps0 (W0 m ρ c) (Proc.devRef .tc main_arg0) = _
  after_results
  all_goals rfl

theorem entry0_wcat (c : Dev nD) : V1 m ρ c main_v2 = wcat (m ((c : Thread nD τ).loc main_arg1)) := by
  show StableHlo.after hostOps0 (W0 m ρ c) (Proc.devRef .tc main_v2) = _
  after_results
  all_goals rfl

/-! ## Between the calls -/

/-- The first call leaves the endpoint and relation arrays as launched. -/
theorem mid_ei (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results
  all_goals rfl

theorem mid_et (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results
  all_goals rfl

set_option maxHeartbeats 2000000 in
theorem entry1_rel_mid (c : Dev nD) : V9 m ρ c main_v6 = relPadded (W2 m ρ c (Proc.devRef .tc main_arg3)) := by
  show StableHlo.after hostOps1_6 (W8 m ρ c) (Proc.devRef .tc main_v6) = _
  after_results_simp
  all_goals rfl

theorem entry1_rel (c : Dev nD) : V9 m ρ c main_v6 = relPadded (m ((c : Thread nD τ).loc main_arg3)) :=
  (entry1_rel_mid m ρ c).trans (congrArg relPadded (mid_et m ρ c))

set_option maxHeartbeats 2000000 in
theorem entry1_src_mid (c : Dev nD) :
    V9 m ρ c main_v15 = Host.gather gather_S50000x16_S1601536x1_S1601536x16_1_0_n_n_0_1_116
      (W2 m ρ c (Proc.devRef .tc main_v3_0)) (srcColumn (W2 m ρ c (Proc.devRef .tc main_arg2))) := by
  show StableHlo.after hostOps1_6 (W8 m ρ c) (Proc.devRef .tc main_v15) = _
  after_results_simp
  all_goals rfl

theorem entry1_src (c : Dev nD) :
    V9 m ρ c main_v15 = Host.gather gather_S50000x16_S1601536x1_S1601536x16_1_0_n_n_0_1_116
      (W2 m ρ c (Proc.devRef .tc main_v3_0)) (srcColumn (m ((c : Thread nD τ).loc main_arg2))) :=
  (entry1_src_mid m ρ c).trans (congrArg (fun ei => Host.gather gather_S50000x16_S1601536x1_S1601536x16_1_0_n_n_0_1_116
      (W2 m ρ c (Proc.devRef .tc main_v3_0)) (srcColumn ei)) (mid_ei m ρ c))

set_option maxHeartbeats 2000000 in
theorem entry1_dst_mid (c : Dev nD) :
    V9 m ρ c main_v24 = Host.gather gather_S50000x16_S1601536x1_S1601536x16_1_0_n_n_0_1_116
      (W2 m ρ c (Proc.devRef .tc main_v3_1)) (dstColumn (W2 m ρ c (Proc.devRef .tc main_arg2))) := by
  show StableHlo.after hostOps1_6 (W8 m ρ c) (Proc.devRef .tc main_v24) = _
  after_results_simp
  all_goals rfl

theorem entry1_dst (c : Dev nD) :
    V9 m ρ c main_v24 = Host.gather gather_S50000x16_S1601536x1_S1601536x16_1_0_n_n_0_1_116
      (W2 m ρ c (Proc.devRef .tc main_v3_1)) (dstColumn (m ((c : Thread nD τ).loc main_arg2))) :=
  (entry1_dst_mid m ρ c).trans (congrArg (fun ei => Host.gather gather_S50000x16_S1601536x1_S1601536x16_1_0_n_n_0_1_116
      (W2 m ρ c (Proc.devRef .tc main_v3_1)) (dstColumn ei)) (mid_ei m ρ c))

/-! ## After the second call -/

theorem exit_out (c : Dev nD) :
    W11 m ρ c (Proc.devRef .tc main_v26)
      = extractStridedSlice S1600000 ![0] (W10 m ρ c (Proc.devRef .tc main_v25)) Facts₀.slices_S1601536_S1600000_0 := by
  show StableHlo.after hostOps2 (W10 m ρ c) (Proc.devRef .tc main_v26) = _
  after_results
  all_goals rfl

end Cert.KernelIdeal.HostValue

end
-- ==== Proof.KernelGlue.lean ====
/-
  The host values around the two pallas_calls, read at an index.

  For an edge `e` below 1600000 (an unpadded edge): the padded endpoint array holds the edge's own endpoints, so
  the index column of each row gather holds the endpoint wrapped; the padded relation numbers hold the edge's own
  relation number clamped into [0, 15], which is the number of the relation column the specification names; and
  the 128×32 weight array holds, in its left 16 columns, weight rows 0..127, and in its right 16 columns weight
  rows 128..255. A sum over the 16 relation columns against the indicator of one column picks that column.
-/
import proofs.«429399_j64991445123873_3_alg».proof.Proof.KernelHost
import proofs.«429399_j64991445123873_3_alg».proof.Proof.EdgeScore
import Idealize.ShloMosaic.Lib.Pipeline.Value
import Idealize.ShloMosaic.Lib.ValueLayout
import Idealize.ShloMosaic.Lib.Affine

noncomputable section

open scoped BigOperators

namespace Cert.KernelIdeal.Glue

open Cert.KernelIdeal Cert.KernelIdeal.HostValue
open Idealize.ShloMosaic Idealize.ShloMosaic.ValueIdx

/-- An edge number as a padded edge number. -/
def padEdge (e : Fin 1600000) : Fin 1601536 := ⟨e.val, by have := e.isLt; omega⟩

/-! ## The padded arrays at an unpadded edge -/

theorem endpointsPadded_apply (ei : IVec S2x1600000 32) (row : Fin 2) (e : Fin 1600000) :
    endpointsPadded ei (ix2 row (padEdge e)) = ei (ix2 row e) := by
  unfold endpointsPadded pad
  have hin : ∀ a : Fin S2x1600000.rank, (![0, 0] : Fin 2 → Nat) a ≤ ((ix2 row (padEdge e) : S2x1601536.Idx) (a.cast Facts₀.pads_S2x1600000_S2x1601536_000_015360.1)).val
      ∧ (((ix2 row (padEdge e) : S2x1601536.Idx) (a.cast Facts₀.pads_S2x1600000_S2x1601536_000_015360.1)).val - (![0, 0] : Fin 2 → Nat) a) % ((![0, 0] : Fin 2 → Nat) a + 1) = 0
      ∧ (((ix2 row (padEdge e) : S2x1601536.Idx) (a.cast Facts₀.pads_S2x1600000_S2x1601536_000_015360.1)).val - (![0, 0] : Fin 2 → Nat) a) / ((![0, 0] : Fin 2 → Nat) a + 1) < S2x1600000.size a := by
    intro a
    match a with
    | ⟨0, _⟩ => exact ⟨Nat.zero_le _, Nat.mod_one _, by show (row.val - 0) / (0 + 1) < 2; have := row.isLt; omega⟩
    | ⟨1, _⟩ => exact ⟨Nat.zero_le _, Nat.mod_one _, by show (e.val - 0) / (0 + 1) < 1600000; have := e.isLt; omega⟩
  rw [dif_pos hin]
  refine congrArg ei (funext fun a => Fin.ext ?_)
  match a with
  | ⟨0, _⟩ => show (row.val - 0) / (0 + 1) = row.val; omega
  | ⟨1, _⟩ => show (e.val - 0) / (0 + 1) = e.val; omega

/-- The padded relation numbers at an unpadded edge: the edge's own number, raised to 0 and lowered to 15. -/
theorem relPadded_apply (et : IVec S1600000 32) (e : Fin 1600000) :
    relPadded et (ix1 (padEdge e)) = IntOp.minsi 15#32 (IntOp.maxsi 0#32 (et (ix1 e))) := by
  unfold relPadded pad
  have hin : ∀ a : Fin S1600000.rank, (![0] : Fin 1 → Nat) a ≤ ((ix1 (padEdge e) : S1601536.Idx) (a.cast Facts₀.pads_S1600000_S1601536_015360.1)).val
      ∧ (((ix1 (padEdge e) : S1601536.Idx) (a.cast Facts₀.pads_S1600000_S1601536_015360.1)).val - (![0] : Fin 1 → Nat) a) % ((![0] : Fin 1 → Nat) a + 1) = 0
      ∧ (((ix1 (padEdge e) : S1601536.Idx) (a.cast Facts₀.pads_S1600000_S1601536_015360.1)).val - (![0] : Fin 1 → Nat) a) / ((![0] : Fin 1 → Nat) a + 1) < S1600000.size a := by
    intro a
    match a with
    | ⟨0, _⟩ => exact ⟨Nat.zero_le _, Nat.mod_one _, by show (e.val - 0) / (0 + 1) < 1600000; have := e.isLt; omega⟩
  rw [dif_pos hin]
  show IntOp.minsi 15#32 (IntOp.maxsi 0#32 (et _)) = _
  refine congrArg (fun i => IntOp.minsi 15#32 (IntOp.maxsi 0#32 (et i))) (funext fun a => Fin.ext ?_)
  match a with
  | ⟨0, _⟩ => show (e.val - 0) / (0 + 1) = e.val; omega

/-! ## The index columns -/

/-- The wrapped index column at a row is the wrapped node number of that row. -/
theorem wrappedColumn_apply (row : IVec S1601536 32) (p : Fin 1601536) :
    wrappedColumn row (ix2 p (0 : Fin 1)) = EdgeScore.wrapNode (row (ix1 p)) := by
  unfold wrappedColumn
  rw [broadcastInDim_apply _ _ _ _ (ix1 p) (fun a => by
    match a with
    | ⟨0, _⟩ => rfl)]
  rfl

theorem srcColumn_apply (ei : IVec S2x1600000 32) (e : Fin 1600000) :
    srcColumn ei (ix2 (padEdge e) (0 : Fin 1)) = EdgeScore.wrapNode (ei (ix2 (0 : Fin 2) e)) := by
  unfold srcColumn
  rw [wrappedColumn_apply, shapeCast_1a_a_apply,
    extractStridedSlice_apply _ _ _ _ (ix2 (0 : Fin 2) (padEdge e)) (fun a => by
      match a with
      | ⟨0, _⟩ => rfl
      | ⟨1, _⟩ => show (padEdge e).val = 0 + (padEdge e).val; omega),
    endpointsPadded_apply]

theorem dstColumn_apply (ei : IVec S2x1600000 32) (e : Fin 1600000) :
    dstColumn ei (ix2 (padEdge e) (0 : Fin 1)) = EdgeScore.wrapNode (ei (ix2 (1 : Fin 2) e)) := by
  unfold dstColumn
  rw [wrappedColumn_apply, shapeCast_1a_a_apply,
    extractStridedSlice_apply _ _ _ _ (ix2 (1 : Fin 2) (padEdge e)) (fun a => by
      match a with
      | ⟨0, _⟩ => rfl
      | ⟨1, _⟩ => show (padEdge e).val = 0 + (padEdge e).val; omega),
    endpointsPadded_apply]

/-! ## The weights side by side -/

theorem wcat_left (w : FVec Ideal S256x16 .f32) (k : Fin 128) (r : Fin 16) :
    wcat w (ix2 k (⟨r.val, by have := r.isLt; omega⟩ : Fin 32)) = w (ix2 (⟨k.val, by have := k.isLt; omega⟩ : Fin 256) r) := by
  unfold wcat
  refine (concatenate_pair_apply_left (t := S128x32) (s₁ := S128x16) (s₂ := S128x16) (1 : Fin 2) _ _
    Facts₀.concatenates_S128x16_S128x16_S128x32_d1 _ rfl (ix2 k r) (fun b => by
      match b with
      | ⟨0, _⟩ => rfl
      | ⟨1, _⟩ => rfl)).trans ?_
  exact extractStridedSlice_apply _ _ _ _ _ (fun a => by
    match a with
    | ⟨0, _⟩ => show k.val = 0 + k.val; omega
    | ⟨1, _⟩ => show r.val = 0 + r.val; omega)

theorem wcat_right (w : FVec Ideal S256x16 .f32) (k : Fin 128) (r : Fin 16) :
    wcat w (ix2 k (⟨16 + r.val, by have := r.isLt; omega⟩ : Fin 32)) = w (ix2 (⟨128 + k.val, by have := k.isLt; omega⟩ : Fin 256) r) := by
  unfold wcat
  refine (concatenate_pair_apply_right (t := S128x32) (s₁ := S128x16) (s₂ := S128x16) (1 : Fin 2) _ _
    Facts₀.concatenates_S128x16_S128x16_S128x32_d1 _ rfl rfl (ix2 k r) (fun b hb => by
      match b with
      | ⟨0, _⟩ => rfl
      | ⟨1, _⟩ => exact absurd rfl hb) (by show r.val + 16 = 16 + r.val; omega)).trans ?_
  exact extractStridedSlice_apply _ _ _ _ _ (fun a => by
    match a with
    | ⟨0, _⟩ => show 128 + k.val = 128 + k.val; rfl
    | ⟨1, _⟩ => show r.val = 0 + r.val; omega)

/-! ## The clamped relation number and the indicator -/

/-- Raising a relation number to 0 and lowering it to 15 gives the number of the relation column it names. -/
theorem clamp_eq (b : BitVec 32) :
    IntOp.minsi 15#32 (IntOp.maxsi 0#32 b) = BitVec.ofNat 32 (EdgeScore.relCol b).val := by
  unfold IntOp.minsi IntOp.maxsi EdgeScore.relCol RowOps.clampRow
  apply BitVec.eq_of_toNat_eq
  by_cases h0 : b.slt 0#32 = true
  · rw [if_pos h0]
    have : (15#32 : BitVec 32).slt 0#32 = false := by decide
    rw [this]
    have hb : b.toInt < 0 := by simpa [BitVec.slt_iff_toInt_lt] using h0
    simp only [BitVec.toNat_ofNat]
    show (0 : Nat) = _
    omega
  · rw [if_neg h0]
    have hb : 0 ≤ b.toInt := by
      have : ¬ b.toInt < (0#32 : BitVec 32).toInt := by simpa [BitVec.slt_iff_toInt_lt] using h0
      simpa using this
    have hbn : b.toInt = b.toNat := by
      rw [BitVec.toInt_eq_toNat_cond] at hb ⊢
      split_ifs at hb ⊢ with hlt
      · rfl
      · omega
    by_cases h15 : (15#32 : BitVec 32).slt b = true
    · rw [if_pos h15]
      have : (15 : Int) < b.toInt := by simpa [BitVec.slt_iff_toInt_lt] using h15
      simp only [BitVec.toNat_ofNat]
      show (15 : Nat) = _
      omega
    · rw [if_neg h15]
      have : ¬ (15 : Int) < b.toInt := by simpa [BitVec.slt_iff_toInt_lt] using h15
      simp only [BitVec.toNat_ofNat]
      have hlt := b.isLt
      omega

/-- The indicator of "this column's number is the clamped relation number" is the indicator of the relation column. -/
theorem indicator_eq (b : BitVec 32) (r : Fin 16) :
    (BitVec.ofNat 32 r.val = IntOp.minsi 15#32 (IntOp.maxsi 0#32 b)) ↔ r = EdgeScore.relCol b := by
  rw [clamp_eq]
  constructor
  · intro h
    have := congrArg BitVec.toNat h
    simp only [BitVec.toNat_ofNat] at this
    have h1 := r.isLt
    have h2 := (EdgeScore.relCol b).isLt
    exact Fin.ext (by omega)
  · rintro rfl; rfl

/-- The row sum against the indicator of the clamped relation number is the entry at the relation column. -/
theorem pick_relation (a : Fin 16 → EReal) (b : BitVec 32) :
    ∑ r : Fin 16, a r * (if BitVec.ofNat 32 r.val = IntOp.minsi 15#32 (IntOp.maxsi 0#32 b) then (1 : EReal) else 0)
      = a (EdgeScore.relCol b) := by
  rw [← EdgeScore.sum_mul_indicator a (EdgeScore.relCol b)]
  refine Finset.sum_congr rfl fun r _ => ?_
  rw [if_congr (indicator_eq b r) rfl rfl]

end Cert.KernelIdeal.Glue

end
-- ==== Proof.KernelProj.lean ====
/-
  The two projection arrays the first pallas_call leaves, as functions of the launch arrays.

  The call finds the node features as launched and the two weight halves side by side; it leaves, at (n, r), row n
  of the features times column r of the left (resp. right) half: the projection of node n on relation r by weight
  rows 0..127 (resp. 128..255).
-/
import proofs.«429399_j64991445123873_3_alg».proof.Proof.ProjValue
import proofs.«429399_j64991445123873_3_alg».proof.Proof.KernelGlue

noncomputable section

open scoped BigOperators

namespace Cert.KernelIdeal.ProjOfLaunch

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The four argument arrays as launched, at their literal types. -/
abbrev xs (c : Dev nD) : S50000x128.Idx → EReal := m ((c : Thread nD τ).loc main_arg0)
abbrev ws (c : Dev nD) : S256x16.Idx → EReal := m ((c : Thread nD τ).loc main_arg1)
abbrev eis (c : Dev nD) : IVec S2x1600000 32 := m ((c : Thread nD τ).loc main_arg2)
abbrev ets (c : Dev nD) : IVec S1600000 32 := m ((c : Thread nD τ).loc main_arg3)

/-- The two projection arrays at the boundary after the first call, at their literal types. -/
abbrev srcProj (c : Dev nD) : S50000x16.Idx → EReal := W2 m ρ c (Proc.devRef .tc main_v3_0)
abbrev dstProj (c : Dev nD) : S50000x16.Idx → EReal := W2 m ρ c (Proc.devRef .tc main_v3_1)

theorem xArr_eq (c : Dev nD) : ProjValue.xArr (V1 m ρ) c = xs m c := HostValue.entry0_x m ρ c
theorem wcatArr_eq (c : Dev nD) : ProjValue.wcatArr (V1 m ρ) c = HostValue.wcat (F := Ideal) (ws m c) := HostValue.entry0_wcat m ρ c
theorem srcProj_eq (c : Dev nD) : srcProj m ρ c = ProjValue.srcArr (V1 m ρ) c := W2_arr m ρ c 2
theorem dstProj_eq (c : Dev nD) : dstProj m ρ c = ProjValue.dstArr (V1 m ρ) c := W2_arr m ρ c 3

theorem srcProj_apply (c : Dev nD) (n : Fin 50000) (r : Fin 16) :
    srcProj m ρ c (ix2 n r) = EdgeScore.proj (xs m c) (ws m c) 0 (by decide) n r := by
  rw [srcProj_eq, ProjValue.src_final, xArr_eq, wcatArr_eq]
  unfold EdgeScore.proj
  refine Finset.sum_congr rfl fun k _ => ?_
  rw [Glue.wcat_left]
  exact congrArg (fun q => xs m c (ix2 n k) * ws m c (ix2 q r)) (Fin.ext (by show k.val = 0 + k.val; omega))

theorem dstProj_apply (c : Dev nD) (n : Fin 50000) (r : Fin 16) :
    dstProj m ρ c (ix2 n r) = EdgeScore.proj (xs m c) (ws m c) 128 (by decide) n r := by
  rw [dstProj_eq, ProjValue.dst_final, xArr_eq, wcatArr_eq]
  unfold EdgeScore.proj
  refine Finset.sum_congr rfl fun k _ => ?_
  rw [Glue.wcat_right]

end Cert.KernelIdeal.ProjOfLaunch

end
-- ==== Proof.KernelValue.lean ====
/-
  What the kernel's program leaves in its result buffer: the specification's function of the launch arrays.

  The result is the first 1600000 entries of the second pallas_call's output. At an unpadded edge that call's
  inputs hold: the two gathered projection rows (the row gather reads the projection arrays at the endpoint,
  wrapped and clamped), and the edge's relation number clamped into [0, 15]. Its row sum against the indicator of
  that number picks the relation's column of the sum of the two rows, which is the edge's logit at its relation.
-/
import proofs.«429399_j64991445123873_3_alg».proof.Proof.ScoreValue
import proofs.«429399_j64991445123873_3_alg».proof.Proof.KernelProj
import proofs.«429399_j64991445123873_3_alg».proof.Proof.KernelRun

noncomputable section

open scoped BigOperators

namespace Cert.KernelIdeal.EdgeValue

open Cert.KernelIdeal Cert.KernelIdeal.Gen Cert.KernelIdeal.ProjOfLaunch
open Idealize.ShloMosaic Idealize.ShloMosaic.TcCoe Idealize.SL.Sem Idealize.ShloMosaic.ValueIdx

variable (m : (ℓ : Loc nD τ sig) → Buf (Elt Ideal) ℓ) (ρ : Dev nD → PrngReg)

/-- The second call's output array and the program's result at the last boundary, at their literal types. -/
abbrev scores (c : Dev nD) : S1601536.Idx → EReal := W10 m ρ c (Proc.devRef .tc main_v25)
abbrev result (c : Dev nD) : S1600000.Idx → EReal := W11 m ρ c (Proc.devRef .tc main_v26)

theorem scores_eq (c : Dev nD) : scores m ρ c = ScoreValue.outArr (V9 m ρ) c := W10_arr m ρ c 3
theorem srcG_eq (c : Dev nD) :
    ScoreValue.srcG (V9 m ρ) c = Host.gather (RowOps.gatherDims 50000 1601536 16 Facts₀.gather_S50000x16_S1601536x1_S1601536x16_1_0_n_n_0_1_116_wf)
      (srcProj m ρ c) (HostValue.srcColumn (eis m c)) := HostValue.entry1_src m ρ c
theorem dstG_eq (c : Dev nD) :
    ScoreValue.dstG (V9 m ρ) c = Host.gather (RowOps.gatherDims 50000 1601536 16 Facts₀.gather_S50000x16_S1601536x1_S1601536x16_1_0_n_n_0_1_116_wf)
      (dstProj m ρ c) (HostValue.dstColumn (eis m c)) := HostValue.entry1_dst m ρ c
theorem relPad_eq (c : Dev nD) : ScoreValue.relPad (V9 m ρ) c = HostValue.relPadded (ets m c) := HostValue.entry1_rel m ρ c

/-- The gathered source row of an unpadded edge is the source projection of its source node. -/
theorem srcG_apply (c : Dev nD) (e : Fin 1600000) (r : Fin 16) :
    ScoreValue.srcG (V9 m ρ) c (ix2 (Glue.padEdge e) r)
      = EdgeScore.proj (xs m c) (ws m c) 0 (by decide) (EdgeScore.nodeRow (eis m c (ix2 (0 : Fin 2) e))) r := by
  rw [srcG_eq, RowOps.gather_apply (by decide : 0 < 50000), Glue.srcColumn_apply, srcProj_apply]
  rfl

/-- The gathered destination row of an unpadded edge is the destination projection of its destination node. -/
theorem dstG_apply (c : Dev nD) (e : Fin 1600000) (r : Fin 16) :
    ScoreValue.dstG (V9 m ρ) c (ix2 (Glue.padEdge e) r)
      = EdgeScore.proj (xs m c) (ws m c) 128 (by decide) (EdgeScore.nodeRow (eis m c (ix2 (1 : Fin 2) e))) r := by
  rw [dstG_eq, RowOps.gather_apply (by decide : 0 < 50000), Glue.dstColumn_apply, dstProj_apply]
  rfl

/-- The second call's output at an unpadded edge is the specification's value at that edge. -/
theorem scores_apply (c : Dev nD) (e : Fin 1600000) :
    scores m ρ c (ix1 (Glue.padEdge e)) = EdgeScore.G (xs m c) (ws m c) (eis m c) (ets m c) (ix1 e) := by
  rw [scores_eq, ScoreValue.score_final, relPad_eq, Glue.relPadded_apply,
    Glue.pick_relation (fun r => ScoreValue.srcG (V9 m ρ) c (ix2 (Glue.padEdge e) r) + ScoreValue.dstG (V9 m ρ) c (ix2 (Glue.padEdge e) r)),
    srcG_apply, dstG_apply]
  rfl

/-- The result buffer at the last boundary is the specification's function of the launch arrays. -/
theorem result_eq (c : Dev nD) : result m ρ c = EdgeScore.G (xs m c) (ws m c) (eis m c) (ets m c) := by
  funext i
  obtain ⟨e, rfl⟩ : ∃ e : Fin 1600000, i = ix1 e := ⟨i 0, eq_ix1 i⟩
  show W11 m ρ c (Proc.devRef .tc main_v26) (ix1 e) = _
  rw [HostValue.exit_out]
  refine (extractStridedSlice_apply _ _ _ _ (ix1 (Glue.padEdge e)) (fun a => by
    match a with
    | ⟨0, _⟩ => show e.val = 0 + e.val; omega)).trans ?_
  exact scores_apply m ρ c e

/-- Every weakly fair execution of the kernel's program ends with the result buffer at the specification's function
    of the launch arrays, and the four arguments as launched. -/
theorem run : θ_run defs (onTc (τ := τ) (main (F := Ideal))) ⟨m, fun _ => 0, ρ⟩ (fun r => ∀ c : Dev nD,
      r.2.mem ((c.tc : Thread nD τ).loc main_v26) = EdgeScore.G (xs m c) (ws m c) (eis m c) (ets m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (GenRun.run_named m ρ)

end Cert.KernelIdeal.EdgeValue

end
-- ==== Proof.RefValue.lean ====
/-
  The reference's result, stage by stage, is the specification's function.

  The reference computes, for every edge `e`, a clamped probability from four arrays: the node features `x0`, the
  weights `x1`, the edge endpoints `x2` and the relation numbers `x3`. Read at one edge, its stages are these.

  * Each endpoint is wrapped as array indexing wraps it (a negative number has 50000 added) and the node table's row
    at the wrapped number, clamped into the table, is gathered: row `e` of each gathered matrix is the row
    `EdgeScore.nodeRow` names.
  * The source rows are multiplied by the first 128 rows of the weights and the destination rows by the last 128, and
    the two products are added: entry `(e, r)` of the sum is `EdgeScore.logit` of edge `e` for relation `r`.
  * The edge's relation number picks one logit of its row. The reference wraps a negative number (adding 16), tests
    the wrapped number against `[0, 15]`, gathers the logit at the number clamped into `[0, 15]`, and replaces the
    result by a fixed junk constant where the test fails. When every relation number already lies in `[0, 16)` nothing
    is wrapped and the test holds at every edge, so the picked value is the logit at `EdgeScore.relCol` of the number.
  * The picked score `s` goes through `1 / (1 + exp (-s))`, which over the extended reals is the logistic function
    by definition, and is clamped between the two constants: `EdgeScore.prob s`.

  Each section below reads one of these groups of stages at an index; `ref_eq` puts them together.
-/
import proofs.«429399_j64991445123873_3_alg».proof.Proof.RefRead
import proofs.«429399_j64991445123873_3_alg».proof.Proof.EdgeScore
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx

/-! ## Signed comparisons of a word whose value is known

A signed comparison of two 32-bit words compares their values as integers; the constants `0` and `15` have the
values `0` and `15`. -/

/-- A word whose value is not negative is not below zero. -/
theorem cmpi_slt_zero_of_nonneg (a : BitVec 32) (h : 0 ≤ a.toInt) : IntOp.cmpi .slt a 0#32 = 0#1 := by
  show BitVec.ofBool (a.slt 0#32) = 0#1
  have h0 : (0#32 : BitVec 32).toInt = 0 := by decide
  have hb : a.slt 0#32 = false := by
    simp only [BitVec.slt, h0, decide_eq_false_iff_not, not_lt]; exact h
  rw [hb]; rfl

/-- A word whose value is not negative is at least zero. -/
theorem cmpi_sge_zero_of_nonneg (a : BitVec 32) (h : 0 ≤ a.toInt) : IntOp.cmpi .sge a 0#32 = 1#1 := by
  show BitVec.ofBool ((0#32 : BitVec 32).sle a) = 1#1
  have h0 : (0#32 : BitVec 32).toInt = 0 := by decide
  have hb : (0#32 : BitVec 32).sle a = true := by
    simp only [BitVec.sle, h0, decide_eq_true_eq]; exact h
  rw [hb]; rfl

/-- A word whose value is below sixteen is at most fifteen. -/
theorem cmpi_sle_fifteen_of_lt (a : BitVec 32) (h : a.toInt < 16) : IntOp.cmpi .sle a 15#32 = 1#1 := by
  show BitVec.ofBool (a.sle 15#32) = 1#1
  have h0 : (15#32 : BitVec 32).toInt = 15 := by decide
  have hb : a.sle 15#32 = true := by
    simp only [BitVec.sle, h0, decide_eq_true_eq]; omega
  rw [hb]; rfl

/-! ## A reduction across an axis of size one

The range test's two comparisons are combined and then reduced by `and` across the last axis of a
`[1600000, 1, 1]` array. That axis has one coordinate, so each result element combines the initial value with exactly
one element of the operand. -/

/-- A fold over the one-element index set `Fin 1` meets its single term once. -/
theorem fold_univ_fin_one {β : Type} (op : β → β → β) [Std.Commutative op] [Std.Associative op] (b : β) (f : Fin 1 → β) :
    (Finset.univ : Finset (Fin 1)).fold op b f = op (f 0) b := by
  rw [show (Finset.univ : Finset (Fin 1)) = {0} from rfl, Finset.fold_singleton]

/-- The `and`-reduction across the last axis of a `[1600000, 1, 1]` array, at `(e, 0)`: the element at `(e, 0, 0)`
    combined with the initial value. The indices that reduce into `(e, 0)` are `(e, 0, k)` for `k` in an axis of
    size one. -/
theorem reduce_and_unit_axis (x : S1600000x1x1.Idx → BitVec 1) (init : S_.Idx → BitVec 1) (e : Fin 1600000) :
    Host.reduce IntOp.andi x init reducesTo_S1600000x1x1_S1600000x1_d2 h_S_ (ix2 e 0)
      = IntOp.andi (x (ix3 e 0 0)) (init (Shape.Idx.first h_S_)) := by
  have hR : S1600000x1x1.Reduces [2] S1600000x1 := by decide
  rw [Host.reduce_eq_fold_single IntOp.andi x init _ hR h_S_ (ix2 e 0)]
  refine (fold_univ_fin_one IntOp.andi (init (Shape.Idx.first h_S_)) (fun k => x (hR.lift (ix2 e 0) k))).trans ?_
  congr 2
  funext c
  refine Fin.ext ?_
  match c with
  | ⟨0, _⟩ => rfl
  | ⟨1, _⟩ => rfl
  | ⟨2, _⟩ => rfl

/-! ## Picking one entry per row

The gather that picks, in row `e` of a `[1600000, 16]` matrix, the column a `[1600000, 1, 1]` array of numbers
names: the row axis is a batching axis (result row `e` reads operand row `e` and index row `e`), the column axis is
the one the start index addresses, and the slice is a single element. -/

/-- Entry `(e, 0)` of the per-row pick is the matrix at row `e` and at the column `idx (e, 0, 0)`, read signed and
    clamped into `[0, 15]`. On the row axis the start is zero, the batching coordinate is `e` and there is no offset;
    on the column axis the start is the clamped number and the other two coordinates are zero. -/
theorem relGather_apply {α : Type} {w : Nat} (L : S1600000x16.Idx → α) (idx : IVec S1600000x1x1 w) (e : Fin 1600000) :
    Host.gather gather_S1600000x16_S1600000x1x1_S1600000x1_n_1_0_0_1_2_11 L idx (ix2 e 0)
      = L (ix2 e (RowOps.clampRow 16 (by decide) (idx (ix3 e 0 0)))) := by
  unfold Host.gather
  congr 1
  funext a
  refine Fin.ext ?_
  match a with
  | ⟨0, _⟩ =>
    show gather_S1600000x16_S1600000x1x1_S1600000x1_n_1_0_0_1_2_11.start (ix2 e 0) idx 0
      + gather_S1600000x16_S1600000x1x1_S1600000x1_n_1_0_0_1_2_11.batchCoord (ix2 e 0) 0
      + gather_S1600000x16_S1600000x1x1_S1600000x1_n_1_0_0_1_2_11.offCoord (ix2 e 0) 0 = e.val
    rw [GatherDims.start_batching _ _ _ _ (by decide), GatherDims.offCoord_eq_zero _ _ _ (by decide)]
    simp only [Nat.zero_add, Nat.add_zero]
    rfl
  | ⟨1, _⟩ =>
    show gather_S1600000x16_S1600000x1x1_S1600000x1_n_1_0_0_1_2_11.start (ix2 e 0) idx 1
      + gather_S1600000x16_S1600000x1x1_S1600000x1_n_1_0_0_1_2_11.batchCoord (ix2 e 0) 1
      + gather_S1600000x16_S1600000x1x1_S1600000x1_n_1_0_0_1_2_11.offCoord (ix2 e 0) 1 = min (idx (ix3 e 0 0)).toInt.toNat (16 - 1)
    rw [GatherDims.batchCoord_eq_zero _ _ _ (by decide), GatherDims.offCoord_eq_zero _ _ _ (by decide)]
    simp only [Nat.add_zero]
    unfold GatherDims.start
    rw [dif_pos (show (1 : Fin 2) ∈ gather_S1600000x16_S1600000x1x1_S1600000x1_n_1_0_0_1_2_11.startIndexMap from by decide)]
    have hsi : gather_S1600000x16_S1600000x1x1_S1600000x1_n_1_0_0_1_2_11.siIdx (ix2 e 0)
        ⟨List.idxOf (1 : Fin 2) gather_S1600000x16_S1600000x1x1_S1600000x1_n_1_0_0_1_2_11.startIndexMap,
          List.idxOf_lt_length_iff.2 (by decide)⟩ = ix3 e 0 0 := by
      funext b; refine Fin.ext ?_
      match b with
      | ⟨0, _⟩ => rfl
      | ⟨1, _⟩ => rfl
      | ⟨2, _⟩ => rfl
    rw [hsi]
    rfl

/-! ## The endpoints

Row 0 of `x2` holds the source of every edge and row 1 the destination; each row is cut out, flattened, wrapped and
made a column of start indices. -/

/-- The flattened first row of the endpoints at `e` is the source of edge `e`. -/
theorem src_apply (x2 : IVec S2x1600000 32) (e : Fin 1600000) :
    val_main_v3 (F := Ideal) x2 (ix1 e) = x2 (ix2 0 e) := by
  rw [val_main_v3_apply, val_main_v2_apply]
  congr 1
  funext a
  match a with
  | ⟨0, _⟩ => rfl
  | ⟨1, _⟩ => exact Fin.ext (Nat.mod_eq_of_lt e.isLt)

/-- The flattened second row of the endpoints at `e` is the destination of edge `e`. -/
theorem dst_apply (x2 : IVec S2x1600000 32) (e : Fin 1600000) :
    val_main_v13 (F := Ideal) x2 (ix1 e) = x2 (ix2 1 e) := by
  rw [val_main_v13_apply, val_main_v12_apply]
  congr 1
  funext a
  match a with
  | ⟨0, _⟩ => rfl
  | ⟨1, _⟩ => exact Fin.ext (Nat.mod_eq_of_lt e.isLt)

/-- The column of source start indices at `(e, 0)`: the source of edge `e`, with 50000 added when it is negative. -/
theorem srcCol_apply (x2 : IVec S2x1600000 32) (e : Fin 1600000) :
    val_main_v9 (F := Ideal) x2 (ix2 e 0) = EdgeScore.wrapNode (x2 (ix2 0 e)) := by
  rw [val_main_v9_apply, show idx_main_v9 (ix2 e (0 : Fin 1)) = ix1 e from funext fun a => by match a with | ⟨0, _⟩ => rfl,
    val_main_v8_apply, val_main_v5_apply, val_main_v7_apply, val_main_v4_apply, val_main_v6_apply, val_main_c_apply,
    val_main_c_0_apply, src_apply]
  rfl

/-- The column of destination start indices at `(e, 0)`: the destination of edge `e`, wrapped the same way. -/
theorem dstCol_apply (x2 : IVec S2x1600000 32) (e : Fin 1600000) :
    val_main_v19 (F := Ideal) x2 (ix2 e 0) = EdgeScore.wrapNode (x2 (ix2 1 e)) := by
  rw [val_main_v19_apply, show idx_main_v19 (ix2 e (0 : Fin 1)) = ix1 e from funext fun a => by match a with | ⟨0, _⟩ => rfl,
    val_main_v18_apply, val_main_v15_apply, val_main_v17_apply, val_main_v14_apply, val_main_v16_apply, val_main_c_1_apply,
    val_main_c_2_apply, dst_apply]
  rfl

/-! ## The gathered rows -/

/-- The reference's row gather carries the dimension numbers of `x[idx]` over the rows of a `[50000, 128]` matrix at a
    `[1600000, 1]` column of row numbers. -/
theorem rowGather_eq :
    gather_S50000x128_S1600000x1_S1600000x128_1_0_n_n_0_1_1128
      = RowOps.gatherDims 50000 1600000 128 Facts₀.gather_S50000x128_S1600000x1_S1600000x128_1_0_n_n_0_1_1128_wf := rfl

/-- Row `e` of the gathered source rows is the node table's row for the source of edge `e`. -/
theorem srcRow_apply (x0 : S50000x128.Idx → EReal) (x2 : IVec S2x1600000 32) (e : Fin 1600000) (k : Fin 128) :
    val_main_v10 (F := Ideal) x0 x2 (ix2 e k) = x0 (ix2 (EdgeScore.nodeRow (x2 (ix2 0 e))) k) := by
  unfold val_main_v10
  rw [rowGather_eq, RowOps.gather_apply (by decide), srcCol_apply]
  rfl

/-- Row `e` of the gathered destination rows is the node table's row for the destination of edge `e`. -/
theorem dstRow_apply (x0 : S50000x128.Idx → EReal) (x2 : IVec S2x1600000 32) (e : Fin 1600000) (k : Fin 128) :
    val_main_v20 (F := Ideal) x0 x2 (ix2 e k) = x0 (ix2 (EdgeScore.nodeRow (x2 (ix2 1 e))) k) := by
  unfold val_main_v20
  rw [rowGather_eq, RowOps.gather_apply (by decide), dstCol_apply]
  rfl

/-! ## The logits -/

/-- Entry `(e, r)` of the sum of the two products is the logit of edge `e` for relation `r`: term `k` of the first
    product is the source row at `k` times the weights at `(k, r)`, term `k` of the second the destination row at `k`
    times the weights at `(128 + k, r)`. -/
theorem logit_apply (x0 : S50000x128.Idx → EReal) (x1 : S256x16.Idx → EReal) (x2 : IVec S2x1600000 32)
    (e : Fin 1600000) (r : Fin 16) :
    val_main_v22 (F := Ideal) x0 x1 x2 (ix2 e r) = EdgeScore.logit x0 x1 x2 e r := by
  rw [val_main_v22_apply, val_main_v11_apply, val_main_v21_apply, Ideal.addf_def]
  unfold EdgeScore.logit EdgeScore.proj
  congr 1
  · refine Finset.sum_congr rfl fun k _ => ?_
    rw [show lidx_main_v11 (ix2 e r) k = ix2 e k from funext fun a => by match a with | ⟨0, _⟩ => rfl | ⟨1, _⟩ => rfl,
      srcRow_apply, val_main_v0_apply]
    congr 2
    funext a
    match a with
    | ⟨0, _⟩ => exact Fin.ext (Nat.zero_add _).symm
    | ⟨1, _⟩ => rfl
  · refine Finset.sum_congr rfl fun k _ => ?_
    rw [show lidx_main_v21 (ix2 e r) k = ix2 e k from funext fun a => by match a with | ⟨0, _⟩ => rfl | ⟨1, _⟩ => rfl,
      dstRow_apply, val_main_v1_apply]
    congr 2
    funext a
    match a with
    | ⟨0, _⟩ => rfl
    | ⟨1, _⟩ => rfl

/-! ## The relation number

Under the hypothesis that the relation number of edge `e` has a value in `[0, 16)`. -/

/-- The relation numbers as a column, at `(e, 0)`: the relation number of edge `e`. -/
theorem relCol1_apply (x3 : IVec S1600000 32) (e : Fin 1600000) :
    val_main_v23 (F := Ideal) x3 (ix2 e 0) = x3 (ix1 e) := by
  rw [val_main_v23_apply]
  congr 1
  funext a
  match a with
  | ⟨0, _⟩ => rfl

/-- A relation number that is not negative is left as it is by the wrap. -/
theorem relWrapped_apply (x3 : IVec S1600000 32) (e : Fin 1600000) (h0 : 0 ≤ (x3 (ix1 e)).toInt) :
    val_main_call0_v4 (F := Ideal) x3 (ix2 e 0) = x3 (ix1 e) := by
  rw [val_main_call0_v4_apply, val_main_call0_v1_apply, val_main_call0_v0_apply, val_main_call0_c_apply, relCol1_apply,
    cmpi_slt_zero_of_nonneg _ h0, select_zero]

/-- The wrapped relation numbers reshaped to `[1600000, 1, 1]`, at `(e, 0, 0)`: still the relation number of edge `e`. -/
theorem relIdx_apply (x3 : IVec S1600000 32) (e : Fin 1600000) (h0 : 0 ≤ (x3 (ix1 e)).toInt) :
    val_main_call0_v5 (F := Ideal) x3 (ix3 e 0 0) = x3 (ix1 e) := by
  rw [val_main_call0_v5_apply,
    show idx_main_call0_v5 (ix3 e (0 : Fin 1) (0 : Fin 1)) = ix2 e 0 from funext fun a => by
      match a with
      | ⟨0, _⟩ => exact Fin.ext (by show ((e.val * 1 + 0) * 1 + 0) / 1 = e.val; omega)
      | ⟨1, _⟩ => rfl,
    relWrapped_apply x3 e h0]

/-- The range test holds at edge `e`: the number is at least 0 and at most 15, and the reduction of the conjunction
    across an axis of size one, from `true`, is the conjunction itself. -/
theorem inRange_apply (x3 : IVec S1600000 32) (e : Fin 1600000) (h0 : 0 ≤ (x3 (ix1 e)).toInt)
    (h1 : (x3 (ix1 e)).toInt < 16) : val_main_call0_v12 (F := Ideal) x3 (ix2 e 0) = 1#1 := by
  unfold val_main_call0_v12
  rw [reduce_and_unit_axis, val_main_call0_c_3_apply, val_main_call0_v11_apply, val_main_call0_v7_apply,
    val_main_call0_v10_apply, val_main_call0_v6_apply, val_main_call0_c_2_apply, val_main_call0_v9_apply,
    val_main_call0_v8_apply, val_main_call0_c_1_apply, relIdx_apply x3 e h0, cmpi_sge_zero_of_nonneg _ h0,
    cmpi_sle_fifteen_of_lt _ h1]
  rfl

/-- The picked score of edge `e`: the test holds, so the gathered entry is kept, and that entry is the logit of the
    edge at its own relation's column. -/
theorem picked_apply (x0 : S50000x128.Idx → EReal) (x1 : S256x16.Idx → EReal) (x2 : IVec S2x1600000 32)
    (x3 : IVec S1600000 32) (e : Fin 1600000) (h0 : 0 ≤ (x3 (ix1 e)).toInt) (h1 : (x3 (ix1 e)).toInt < 16) :
    val_main_v24 (F := Ideal) x0 x1 x2 x3 (ix2 e 0) = EdgeScore.logit x0 x1 x2 e (EdgeScore.relCol (x3 (ix1 e))) := by
  rw [val_main_v24_apply, inRange_apply x3 e h0 h1, select_one]
  unfold val_main_call0_v13
  rw [relGather_apply, logit_apply, relIdx_apply x3 e h0]
  rfl

/-! ## From the score to the clamped probability -/

/-- The binary32 word `0x3F800000` is the number one: sign 0, exponent field 127, fraction 0. -/
theorem one_word : Ideal.ofBits .f32 0x3F800000#32 = 1 := by
  rw [show (1 : EReal) = ((1 : ℝ) : EReal) by norm_cast]
  simp [Ideal.ofBits, Ideal.ieee, -EReal.coe_mul]; norm_num

/-- The last stage at edge `e` is the clamped logistic of the picked score `s`: the stages in between compute
    `1 / (1 + exp (-s))`, take the maximum with the lower constant and then the minimum with the upper one. -/
theorem score_apply (x0 : S50000x128.Idx → EReal) (x1 : S256x16.Idx → EReal) (x2 : IVec S2x1600000 32)
    (x3 : IVec S1600000 32) (e : Fin 1600000) :
    val_main_v32 (F := Ideal) x0 x1 x2 x3 (ix1 e)
      = EdgeScore.prob (val_main_v24 (F := Ideal) x0 x1 x2 x3 (ix2 e 0)) := by
  rw [val_main_v32_apply, val_main_call1_v4_apply, val_main_call1_v3_apply, val_main_cst_5_apply,
    val_main_call1_v2_apply, val_main_call1_v1_apply, val_main_call1_v0_apply, val_main_cst_4_apply,
    val_main_v31_apply, val_main_v30_apply, val_main_cst_3_apply, val_main_v29_apply, val_main_v28_apply,
    val_main_cst_apply, val_main_v27_apply, val_main_v26_apply, val_main_v25_apply,
    show idx_main_v25 (ix1 e) = ix2 e 0 from funext fun a => by
      match a with
      | ⟨0, _⟩ => exact Fin.ext (Nat.div_one _)
      | ⟨1, _⟩ => rfl]
  simp only [Ideal.minimumf_def, Ideal.maximumf_def, Ideal.hostDivf_def, Ideal.addf_def, Ideal.hostUnary_exp_def,
    Ideal.hostNegf_def, Ideal.negf_def, Ideal.ofBits_def, one_word]
  rfl

/-- With every relation number in `[0, 16)`, the reference's last stage is the specification's function of the four
    argument arrays. -/
theorem ref_eq (x0 : S50000x128.Idx → EReal) (x1 : S256x16.Idx → EReal) (x2 : IVec S2x1600000 32) (x3 : IVec S1600000 32)
    (hrel : ∀ i : S1600000.Idx, 0 ≤ (x3 i).toInt ∧ (x3 i).toInt < 16) :
    val_main_v32 (F := Ideal) x0 x1 x2 x3 = EdgeScore.G x0 x1 x2 x3 := by
  funext i
  obtain ⟨e, rfl⟩ : ∃ e : Fin 1600000, i = ix1 e := ⟨i 0, eq_ix1 i⟩
  rw [score_apply, picked_apply x0 x1 x2 x3 e (hrel (ix1 e)).1 (hrel (ix1 e)).2]
  rfl

end Cert.ReferenceIdeal.RefValue

end
-- ==== Proof.PreDecode.lean ====
/-
  What the precondition says of the relation numbers: every one of them lies in [0, 16).

  The precondition is a conjunction of four "all" tests (two on the float arrays, two on the relation numbers: each
  at least 0, each below 16). A conjunction of bits is 1 only if each bit is, and an "all" over an array is 1 only
  if the test holds at every index.
-/
import proofs.«429399_j64991445123873_3_alg».proof.Pre_finite_inputs
import proofs.«429399_j64991445123873_3_alg».proof.Proof.Gen.Pre_finite_inputs
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic

instance : Subsingleton S_.Idx := ⟨fun a b => funext fun d => d.elim0⟩

/-- Under the precondition every relation number, read signed, is at least 0 and below 16. -/
theorem rel_range {F : FTy → Type} [FloatOps F] (x0 : FVec F S50000x128 .f32) (x1 : FVec F S256x16 .f32)
    (x2 : IVec S2x1600000 32) (x3 : IVec S1600000 32)
    (h : fn (F := F) x0 x1 x2 x3 = fun _ => 1#1) (i : S1600000.Idx) :
    0 ≤ (x3 i).toInt ∧ (x3 i).toInt < 16 := by
  have h0 := congrFun h ValueIdx.ix0
  dsimp only [fn, fn_part1] at h0
  obtain ⟨h12, h15⟩ := IntOp.andi_eq_one.1 h0
  obtain ⟨-, h11⟩ := IntOp.andi_eq_one.1 h12
  have ge := Host.reduce_andi_all _ _ _ _ _ h11 i
  have lt := Host.reduce_andi_all _ _ _ _ _ h15 i
  have ge' : (0#32 : BitVec 32).toInt ≤ (x3 i).toInt := IntOp.cmpi_sge.1 ge
  have lt' : (x3 i).toInt < (16#32 : BitVec 32).toInt := IntOp.cmpi_slt.1 lt
  have e0 : (0#32 : BitVec 32).toInt = 0 := by decide
  have e16 : (16#32 : BitVec 32).toInt = 16 := by decide
  omega

end Cert.Pre_finite_inputs.Decode

end
-- ==== Proof.lean ====
/-
  The certificate's five claims.

  Both programs compute, for each of 1600000 edges of a graph with 50000 nodes and 16 relations, the clamped
  logistic of the edge's logit at its own relation, where the logit of an edge for relation r is
  x[src] · w[0:128, r] + x[dst] · w[128:256, r]. The reference gathers the two feature rows and multiplies each by
  its half of the weights; the kernel's program first projects EVERY node by both halves (one pallas_call, a matrix
  product per tile of 5000 nodes), gathers the projected rows, and a second pallas_call adds them, picks the
  relation's column by a sum against an indicator, and applies the logistic and the clamp. Gathering rows commutes
  with multiplying by a fixed matrix, and over the extended reals a sum against an indicator picks its one term
  (0 · a = 0 for every a), so no finiteness is used. The kernel's program clamps the relation number into [0, 15]
  where the reference wraps a negative number and gives an undefined value out of range; under the precondition
  that every relation number lies in [0, 16) the two readings agree.

  The three frames are the generated ones (the reference's: its run with the result forgotten); the idealization
  rewrote nothing, so `preserves` asks nothing; `algebraic` states both runs at the specification's function
  `EdgeScore.G` of the launch arrays.
-/
import proofs.«429399_j64991445123873_3_alg».proof.Defs
import proofs.«429399_j64991445123873_3_alg».proof.Proof.Gen.Kernel
import proofs.«429399_j64991445123873_3_alg».proof.Proof.Gen.Kernel.Skeleton
import proofs.«429399_j64991445123873_3_alg».proof.Proof.Gen.Kernel.Launch
import proofs.«429399_j64991445123873_3_alg».proof.Proof.Gen.Kernel.Points
import proofs.«429399_j64991445123873_3_alg».proof.Proof.Gen.Kernel.Frame
import proofs.«429399_j64991445123873_3_alg».proof.Proof.Gen.KernelIdeal
import proofs.«429399_j64991445123873_3_alg».proof.Proof.Gen.KernelIdeal.Skeleton
import proofs.«429399_j64991445123873_3_alg».proof.Proof.Gen.KernelIdeal.Launch
import proofs.«429399_j64991445123873_3_alg».proof.Proof.Gen.KernelIdeal.Points
import proofs.«429399_j64991445123873_3_alg».proof.Proof.Gen.KernelIdeal.Frame
import proofs.«429399_j64991445123873_3_alg».proof.Proof.Gen.ReferenceIdeal
import proofs.«429399_j64991445123873_3_alg».proof.Proof.Gen.Pre_finite_inputs
import proofs.«429399_j64991445123873_3_alg».proof.Proof.KernelValue
import proofs.«429399_j64991445123873_3_alg».proof.Proof.RefValue
import proofs.«429399_j64991445123873_3_alg».proof.Proof.PreDecode
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end at the specification's function of the kernel side's launch arrays: the kernel's by its value
    read off the frame, the reference's by its stages, the relation numbers in range by the precondition. -/
theorem algebraic : Cert.algebraic_KernelIdeal_ReferenceIdeal := by
  intro m ρ m' ρ' hpre hagree
  refine ⟨fun c => EdgeScore.G (Cert.KernelIdeal.ProjOfLaunch.xs m c) (Cert.KernelIdeal.ProjOfLaunch.ws m c)
    (Cert.KernelIdeal.ProjOfLaunch.eis m c) (Cert.KernelIdeal.ProjOfLaunch.ets m c), Cert.KernelIdeal.EdgeValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v32_eq, (hagree c).1, (hagree c).2.1, (hagree c).2.2.1, (hagree c).2.2.2]
  exact Cert.ReferenceIdeal.RefValue.ref_eq _ _ _ _ (fun i => Cert.Pre_finite_inputs.Decode.rel_range _ _ _ _ (hpre c) i)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
